-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072 : Shape := ⟨1, ![131072]⟩
abbrev S100000x960 : Shape := ⟨2, ![100000, 960]⟩
abbrev S50000x960 : Shape := ⟨2, ![50000, 960]⟩
abbrev S100000x32 : Shape := ⟨2, ![100000, 32]⟩
abbrev S50000x32 : Shape := ⟨2, ![50000, 32]⟩
abbrev S960x960 : Shape := ⟨2, ![960, 960]⟩
abbrev S960 : Shape := ⟨1, ![960]⟩
abbrev S512x1024 : Shape := ⟨2, ![512, 1024]⟩
abbrev S512 : Shape := ⟨1, ![512]⟩
abbrev S256x512 : Shape := ⟨2, ![256, 512]⟩
abbrev S256 : Shape := ⟨1, ![256]⟩
abbrev S128x256 : Shape := ⟨2, ![128, 256]⟩
abbrev S128 : Shape := ⟨1, ![128]⟩
abbrev S1x128 : Shape := ⟨2, ![1, 128]⟩
abbrev S1 : Shape := ⟨1, ![1]⟩
abbrev S_ : Shape := ⟨0, ![]⟩

class Facts : Prop where
  bcast_S_S100000x960 : S_.BroadcastsInDim S100000x960 (![] : Fin 0 → Fin S100000x960.rank)
  reducesTo_S100000x960_S_d0_1 : S100000x960.ReducesTo [0, 1] S_
  h_S_ : 0 < S_.numel
  bcast_S_S50000x960 : S_.BroadcastsInDim S50000x960 (![] : Fin 0 → Fin S50000x960.rank)
  reducesTo_S50000x960_S_d0_1 : S50000x960.ReducesTo [0, 1] S_
  bcast_S_S100000x32 : S_.BroadcastsInDim S100000x32 (![] : Fin 0 → Fin S100000x32.rank)
  reducesTo_S100000x32_S_d0_1 : S100000x32.ReducesTo [0, 1] S_
  bcast_S_S50000x32 : S_.BroadcastsInDim S50000x32 (![] : Fin 0 → Fin S50000x32.rank)
  reducesTo_S50000x32_S_d0_1 : S50000x32.ReducesTo [0, 1] S_
  bcast_S_S960x960 : S_.BroadcastsInDim S960x960 (![] : Fin 0 → Fin S960x960.rank)
  reducesTo_S960x960_S_d0_1 : S960x960.ReducesTo [0, 1] S_
  bcast_S_S960 : S_.BroadcastsInDim S960 (![] : Fin 0 → Fin S960.rank)
  reducesTo_S960_S_d0 : S960.ReducesTo [0] S_
  bcast_S_S512x1024 : S_.BroadcastsInDim S512x1024 (![] : Fin 0 → Fin S512x1024.rank)
  reducesTo_S512x1024_S_d0_1 : S512x1024.ReducesTo [0, 1] S_
  bcast_S_S512 : S_.BroadcastsInDim S512 (![] : Fin 0 → Fin S512.rank)
  reducesTo_S512_S_d0 : S512.ReducesTo [0] S_
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_
  bcast_S_S131072 : S_.BroadcastsInDim S131072 (![] : Fin 0 → Fin S131072.rank)
  reducesTo_S131072_S_d0 : S131072.ReducesTo [0] S_

variable [Facts]

def fn_part5 {F : FTy → Type} [FloatOps F] (main_v80 : IVec S_ 1) (main_v83 : IVec S_ 1) : IVec S_ 1 :=
  let main_v84 : IVec S_ 1 := andi main_v80 main_v83
  main_v84

def fn_part4 {F : FTy → Type} [FloatOps F] (main_arg0 : IVec S131072 32) (main_arg1 : IVec S131072 32) (main_v63 : IVec S_ 1) (main_v67 : IVec S_ 1) : IVec S_ 1 :=
  let main_v68 : IVec S_ 1 := andi main_v63 main_v67
  let main_c_26 : IVec S_ 32 := constantI S_ 32 4294867296#32
  let main_v69 : IVec S131072 32 := broadcastInDim S131072 ![] bcast_S_S131072 main_c_26
  let main_v70 : IVec S131072 1 := cmpi .sge main_arg0 main_v69
  let main_c_27 : IVec S_ 1 := constantI S_ 1 1#1
  let main_v71 : IVec S_ 1 := (fun x v => Host.reduce IntOp.andi x v reducesTo_S131072_S_d0 h_S_) main_v70 main_c_27
  let main_v72 : IVec S_ 1 := andi main_v68 main_v71
  let main_c_28 : IVec S_ 32 := constantI S_ 32 100000#32
  let main_v73 : IVec S131072 32 := broadcastInDim S131072 ![] bcast_S_S131072 main_c_28
  let main_v74 : IVec S131072 1 := cmpi .slt main_arg0 main_v73
  let main_c_29 : IVec S_ 1 := constantI S_ 1 1#1
  let main_v75 : IVec S_ 1 := (fun x v => Host.reduce IntOp.andi x v reducesTo_S131072_S_d0 h_S_) main_v74 main_c_29
  let main_v76 : IVec S_ 1 := andi main_v72 main_v75
  let main_c_30 : IVec S_ 32 := constantI S_ 32 4294917296#32
  let main_v77 : IVec S131072 32 := broadcastInDim S131072 ![] bcast_S_S131072 main_c_30
  let main_v78 : IVec S131072 1 := cmpi .sge main_arg1 main_v77
  let main_c_31 : IVec S_ 1 := constantI S_ 1 1#1
  let main_v79 : IVec S_ 1 := (fun x v => Host.reduce IntOp.andi x v reducesTo_S131072_S_d0 h_S_) main_v78 main_c_31
  let main_v80 : IVec S_ 1 := andi main_v76 main_v79
  let main_c_32 : IVec S_ 32 := constantI S_ 32 50000#32
  let main_v81 : IVec S131072 32 := broadcastInDim S131072 ![] bcast_S_S131072 main_c_32
  let main_v82 : IVec S131072 1 := cmpi .slt main_arg1 main_v81
  let main_c_33 : IVec S_ 1 := constantI S_ 1 1#1
  let main_v83 : IVec S_ 1 := (fun x v => Host.reduce IntOp.andi x v reducesTo_S131072_S_d0 h_S_) main_v82 main_c_33
  fn_part5 (F := F) main_v80 main_v83

def fn_part3 {F : FTy → Type} [FloatOps F] (main_arg0 : IVec S131072 32) (main_arg1 : IVec S131072 32) (main_arg13 : FVec F S128 .f32) (main_arg14 : FVec F S1x128 .f32) (main_arg15 : FVec F S1 .f32) (main_v48 : IVec S_ 1) (main_v49 : FVec F S128x256 .f32) (main_v50 : FVec F S128x256 .f32) : IVec S_ 1 :=
  let main_v51 : IVec S128x256 1 := cmpf .olt main_v49 main_v50
  let main_c_19 : IVec S_ 1 := constantI S_ 1 1#1
  let main_v52 : IVec S_ 1 := (fun x v => Host.reduce IntOp.andi x v reducesTo_S128x256_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S1x128 .f32 := Host.absf main_arg14
  let main_cst_22 : FVec F S_ .f32 := constant S_ .f32 0x7F800000#32
  let main_v60 : FVec F S1x128 .f32 := broadcastInDim S1x128 ![] bcast_S_S1x128 main_cst_22
  let main_v61 : IVec S1x128 1 := cmpf .olt main_v59 main_v60
  let main_c_23 : IVec S_ 1 := constantI S_ 1 1#1
  let main_v62 : IVec S_ 1 := (fun x v => Host.reduce IntOp.andi x v reducesTo_S1x128_S_d0_1 h_S_) main_v61 main_c_23
  let main_v63 : IVec S_ 1 := andi main_v58 main_v62
  let main_v64 : FVec F S1 .f32 := Host.absf main_arg15
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_arg0 main_arg1 main_v63 main_v67

def fn_part2 {F : FTy → Type} [FloatOps F] (main_arg0 : IVec S131072 32) (main_arg1 : IVec S131072 32) (main_arg9 : FVec F S512 .f32) (main_arg10 : FVec F S256x512 .f32) (main_arg11 : FVec F S256 .f32) (main_arg12 : FVec F S128x256 .f32) (main_arg13 : FVec F S128 .f32) (main_arg14 : FVec F S1x128 .f32) (main_arg15 : FVec F S1 .f32) (main_v33 : IVec S_ 1) : IVec S_ 1 :=
  let main_v34 : FVec F S512 .f32 := Host.absf main_arg9
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S256x512 .f32 := Host.absf main_arg10
  let main_cst_14 : FVec F S_ .f32 := constant S_ .f32 0x7F800000#32
  let main_v40 : FVec F S256x512 .f32 := broadcastInDim S256x512 ![] bcast_S_S256x512 main_cst_14
  let main_v41 : IVec S256x512 1 := cmpf .olt main_v39 main_v40
  let main_c_15 : IVec S_ 1 := constantI S_ 1 1#1
  let main_v42 : IVec S_ 1 := (fun x v => Host.reduce IntOp.andi x v reducesTo_S256x512_S_d0_1 h_S_) main_v41 main_c_15
  let main_v43 : IVec S_ 1 := andi main_v38 main_v42
  let main_v44 : FVec F S256 .f32 := Host.absf main_arg11
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S128x256 .f32 := Host.absf main_arg12
  let main_cst_18 : FVec F S_ .f32 := constant S_ .f32 0x7F800000#32
  let main_v50 : FVec F S128x256 .f32 := broadcastInDim S128x256 ![] bcast_S_S128x256 main_cst_18
  fn_part3 (F := F) main_arg0 main_arg1 main_arg13 main_arg14 main_arg15 main_v48 main_v49 main_v50

def fn_part1 {F : FTy → Type} [FloatOps F] (main_arg0 : IVec S131072 32) (main_arg1 : IVec S131072 32) (main_arg6 : FVec F S960x960 .f32) (main_arg7 : FVec F S960 .f32) (main_arg8 : FVec F S512x1024 .f32) (main_arg9 : FVec F S512 .f32) (main_arg10 : FVec F S256x512 .f32) (main_arg11 : FVec F S256 .f32) (main_arg12 : FVec F S128x256 .f32) (main_arg13 : FVec F S128 .f32) (main_arg14 : FVec F S1x128 .f32) (main_arg15 : FVec F S1 .f32) (main_v13 : IVec S_ 1) (main_v16 : IVec S50000x32 1) : IVec S_ 1 :=
  let main_c_5 : IVec S_ 1 := constantI S_ 1 1#1
  let main_v17 : IVec S_ 1 := (fun x v => Host.reduce IntOp.andi x v reducesTo_S50000x32_S_d0_1 h_S_) main_v16 main_c_5
  let main_v18 : IVec S_ 1 := andi main_v13 main_v17
  let main_v19 : FVec F S960x960 .f32 := Host.absf main_arg6
  let main_cst_6 : FVec F S_ .f32 := constant S_ .f32 0x7F800000#32
  let main_v20 : FVec F S960x960 .f32 := broadcastInDim S960x960 ![] bcast_S_S960x960 main_cst_6
  let main_v21 : IVec S960x960 1 := cmpf .olt main_v19 main_v20
  let main_c_7 : IVec S_ 1 := constantI S_ 1 1#1
  let main_v22 : IVec S_ 1 := (fun x v => Host.reduce IntOp.andi x v reducesTo_S960x960_S_d0_1 h_S_) main_v21 main_c_7
  let main_v23 : IVec S_ 1 := andi main_v18 main_v22
  let main_v24 : FVec F S960 .f32 := Host.absf main_arg7
  let main_cst_8 : FVec F S_ .f32 := constant S_ .f32 0x7F800000#32
  let main_v25 : FVec F S960 .f32 := broadcastInDim S960 ![] bcast_S_S960 main_cst_8
  let main_v26 : IVec S960 1 := cmpf .olt main_v24 main_v25
  let main_c_9 : IVec S_ 1 := constantI S_ 1 1#1
  let main_v27 : IVec S_ 1 := (fun x v => Host.reduce IntOp.andi x v reducesTo_S960_S_d0 h_S_) main_v26 main_c_9
  let main_v28 : IVec S_ 1 := andi main_v23 main_v27
  let main_v29 : FVec F S512x1024 .f32 := Host.absf main_arg8
  let main_cst_10 : FVec F S_ .f32 := constant S_ .f32 0x7F800000#32
  let main_v30 : FVec F S512x1024 .f32 := broadcastInDim S512x1024 ![] bcast_S_S512x1024 main_cst_10
  let main_v31 : IVec S512x1024 1 := cmpf .olt main_v29 main_v30
  let main_c_11 : IVec S_ 1 := constantI S_ 1 1#1
  let main_v32 : IVec S_ 1 := (fun x v => Host.reduce IntOp.andi x v reducesTo_S512x1024_S_d0_1 h_S_) main_v31 main_c_11
  let main_v33 : IVec S_ 1 := andi main_v28 main_v32
  fn_part2 (F := F) main_arg0 main_arg1 main_arg9 main_arg10 main_arg11 main_arg12 main_arg13 main_arg14 main_arg15 main_v33

def fn {F : FTy → Type} [FloatOps F] (main_arg0 : IVec S131072 32) (main_arg1 : IVec S131072 32) (main_arg2 : FVec F S100000x960 .f32) (main_arg3 : FVec F S50000x960 .f32) (main_arg4 : FVec F S100000x32 .f32) (main_arg5 : FVec F S50000x32 .f32) (main_arg6 : FVec F S960x960 .f32) (main_arg7 : FVec F S960 .f32) (main_arg8 : FVec F S512x1024 .f32) (main_arg9 : FVec F S512 .f32) (main_arg10 : FVec F S256x512 .f32) (main_arg11 : FVec F S256 .f32) (main_arg12 : FVec F S128x256 .f32) (main_arg13 : FVec F S128 .f32) (main_arg14 : FVec F S1x128 .f32) (main_arg15 : FVec F S1 .f32) : IVec S_ 1 :=
  let main_v0 : FVec F S100000x960 .f32 := Host.absf main_arg2
  let main_cst : FVec F S_ .f32 := constant S_ .f32 0x7F800000#32
  let main_v1 : FVec F S100000x960 .f32 := broadcastInDim S100000x960 ![] bcast_S_S100000x960 main_cst
  let main_v2 : IVec S100000x960 1 := cmpf .olt main_v0 main_v1
  let main_c : IVec S_ 1 := constantI S_ 1 1#1
  let main_v3 : IVec S_ 1 := (fun x v => Host.reduce IntOp.andi x v reducesTo_S100000x960_S_d0_1 h_S_) main_v2 main_c
  let main_v4 : FVec F S50000x960 .f32 := Host.absf main_arg3
  let main_cst_0 : FVec F S_ .f32 := constant S_ .f32 0x7F800000#32
  let main_v5 : FVec F S50000x960 .f32 := broadcastInDim S50000x960 ![] bcast_S_S50000x960 main_cst_0
  let main_v6 : IVec S50000x960 1 := cmpf .olt main_v4 main_v5
  let main_c_1 : IVec S_ 1 := constantI S_ 1 1#1
  let main_v7 : IVec S_ 1 := (fun x v => Host.reduce IntOp.andi x v reducesTo_S50000x960_S_d0_1 h_S_) main_v6 main_c_1
  let main_v8 : IVec S_ 1 := andi main_v3 main_v7
  let main_v9 : FVec F S100000x32 .f32 := Host.absf main_arg4
  let main_cst_2 : FVec F S_ .f32 := constant S_ .f32 0x7F800000#32
  let main_v10 : FVec F S100000x32 .f32 := broadcastInDim S100000x32 ![] bcast_S_S100000x32 main_cst_2
  let main_v11 : IVec S100000x32 1 := cmpf .olt main_v9 main_v10
  let main_c_3 : IVec S_ 1 := constantI S_ 1 1#1
  let main_v12 : IVec S_ 1 := (fun x v => Host.reduce IntOp.andi x v reducesTo_S100000x32_S_d0_1 h_S_) main_v11 main_c_3
  let main_v13 : IVec S_ 1 := andi main_v8 main_v12
  let main_v14 : FVec F S50000x32 .f32 := Host.absf main_arg5
  let main_cst_4 : FVec F S_ .f32 := constant S_ .f32 0x7F800000#32
  let main_v15 : FVec F S50000x32 .f32 := broadcastInDim S50000x32 ![] bcast_S_S50000x32 main_cst_4
  let main_v16 : IVec S50000x32 1 := cmpf .olt main_v14 main_v15
  fn_part1 (F := F) main_arg0 main_arg1 main_arg6 main_arg7 main_arg8 main_arg9 main_arg10 main_arg11 main_arg12 main_arg13 main_arg14 main_arg15 main_v13 main_v16
-- ==== Kernel.lean ====
abbrev S131072 : Shape := ⟨1, ![131072]⟩
abbrev S100000x960 : Shape := ⟨2, ![100000, 960]⟩
abbrev S50000x960 : Shape := ⟨2, ![50000, 960]⟩
abbrev S100000x32 : Shape := ⟨2, ![100000, 32]⟩
abbrev S50000x32 : Shape := ⟨2, ![50000, 32]⟩
abbrev S960x960 : Shape := ⟨2, ![960, 960]⟩
abbrev S960 : Shape := ⟨1, ![960]⟩
abbrev S512x1024 : Shape := ⟨2, ![512, 1024]⟩
abbrev S512 : Shape := ⟨1, ![512]⟩
abbrev S256x512 : Shape := ⟨2, ![256, 512]⟩
abbrev S256 : Shape := ⟨1, ![256]⟩
abbrev S128x256 : Shape := ⟨2, ![128, 256]⟩
abbrev S128 : Shape := ⟨1, ![128]⟩
abbrev S1x128 : Shape := ⟨2, ![1, 128]⟩
abbrev S1 : Shape := ⟨1, ![1]⟩
abbrev S_ : Shape := ⟨0, ![]⟩
abbrev S131072x1 : Shape := ⟨2, ![131072, 1]⟩
abbrev S1x1 : Shape := ⟨2, ![1, 1]⟩
abbrev S131072x960 : Shape := ⟨2, ![131072, 960]⟩
abbrev S131072x32 : Shape := ⟨2, ![131072, 32]⟩
abbrev S1024x512 : Shape := ⟨2, ![1024, 512]⟩
abbrev S512x256 : Shape := ⟨2, ![512, 256]⟩
abbrev S256x128 : Shape := ⟨2, ![256, 128]⟩
abbrev S128x1 : Shape := ⟨2, ![128, 1]⟩
abbrev S1x960 : Shape := ⟨2, ![1, 960]⟩
abbrev S1x512 : Shape := ⟨2, ![1, 512]⟩
abbrev S1x256 : Shape := ⟨2, ![1, 256]⟩
abbrev S1024x960 : Shape := ⟨2, ![1024, 960]⟩
abbrev S1024x32 : Shape := ⟨2, ![1024, 32]⟩
abbrev S1024x1 : Shape := ⟨2, ![1024, 1]⟩
abbrev S1024x1024 : Shape := ⟨2, ![1024, 1024]⟩
abbrev S1024x256 : Shape := ⟨2, ![1024, 256]⟩
abbrev S1024x128 : Shape := ⟨2, ![1024, 128]⟩

abbrev nBuf : Space → Nat
  | .hbm => 128
  | .vmem => 20
  | .smem => 0
  | _ => 0

abbrev bufTy : (tb : Table) → Fin (tcTables nBuf tb) → BufTy
  | .hbm, ⟨0, _⟩ => ⟨S131072, .i32⟩
  | .hbm, ⟨1, _⟩ => ⟨S131072, .i32⟩
  | .hbm, ⟨2, _⟩ => ⟨S100000x960, .f32⟩
  | .hbm, ⟨3, _⟩ => ⟨S50000x960, .f32⟩
  | .hbm, ⟨4, _⟩ => ⟨S100000x32, .f32⟩
  | .hbm, ⟨5, _⟩ => ⟨S50000x32, .f32⟩
  | .hbm, ⟨6, _⟩ => ⟨S960x960, .f32⟩
  | .hbm, ⟨7, _⟩ => ⟨S960, .f32⟩
  | .hbm, ⟨8, _⟩ => ⟨S512x1024, .f32⟩
  | .hbm, ⟨9, _⟩ => ⟨S512, .f32⟩
  | .hbm, ⟨10, _⟩ => ⟨S256x512, .f32⟩
  | .hbm, ⟨11, _⟩ => ⟨S256, .f32⟩
  | .hbm, ⟨12, _⟩ => ⟨S128x256, .f32⟩
  | .hbm, ⟨13, _⟩ => ⟨S128, .f32⟩
  | .hbm, ⟨14, _⟩ => ⟨S1x128, .f32⟩
  | .hbm, ⟨15, _⟩ => ⟨S1, .f32⟩
  | .hbm, ⟨16, _⟩ => ⟨S_, .i32⟩
  | .hbm, ⟨17, _⟩ => ⟨S131072, .i32⟩
  | .hbm, ⟨18, _⟩ => ⟨S131072, .i1⟩
  | .hbm, ⟨19, _⟩ => ⟨S_, .i32⟩
  | .hbm, ⟨20, _⟩ => ⟨S131072, .i32⟩
  | .hbm, ⟨21, _⟩ => ⟨S131072, .i32⟩
  | .hbm, ⟨22, _⟩ => ⟨S131072, .i32⟩
  | .hbm, ⟨23, _⟩ => ⟨S131072x1, .i32⟩
  | .hbm, ⟨24, _⟩ => ⟨S1, .i32⟩
  | .hbm, ⟨25, _⟩ => ⟨S_, .i32⟩
  | .hbm, ⟨26, _⟩ => ⟨S131072x1, .i32⟩
  | .hbm, ⟨27, _⟩ => ⟨S131072x1, .i1⟩
  | .hbm, ⟨28, _⟩ => ⟨S1x1, .i32⟩
  | .hbm, ⟨29, _⟩ => ⟨S131072x1, .i32⟩
  | .hbm, ⟨30, _⟩ => ⟨S131072x1, .i1⟩
  | .hbm, ⟨31, _⟩ => ⟨S131072x1, .i1⟩
  | .hbm, ⟨32, _⟩ => ⟨S_, .i1⟩
  | .hbm, ⟨33, _⟩ => ⟨S131072, .i1⟩
  | .hbm, ⟨34, _⟩ => ⟨S131072x960, .f32⟩
  | .hbm, ⟨35, _⟩ => ⟨S131072x960, .i1⟩
  | .hbm, ⟨36, _⟩ => ⟨S_, .f32⟩
  | .hbm, ⟨37, _⟩ => ⟨S131072x960, .f32⟩
  | .hbm, ⟨38, _⟩ => ⟨S131072x960, .f32⟩
  | .hbm, ⟨39, _⟩ => ⟨S131072x960, .bf16⟩
  | .hbm, ⟨40, _⟩ => ⟨S_, .i32⟩
  | .hbm, ⟨41, _⟩ => ⟨S131072, .i32⟩
  | .hbm, ⟨42, _⟩ => ⟨S131072, .i1⟩
  | .hbm, ⟨43, _⟩ => ⟨S_, .i32⟩
  | .hbm, ⟨44, _⟩ => ⟨S131072, .i32⟩
  | .hbm, ⟨45, _⟩ => ⟨S131072, .i32⟩
  | .hbm, ⟨46, _⟩ => ⟨S131072, .i32⟩
  | .hbm, ⟨47, _⟩ => ⟨S131072x1, .i32⟩
  | .hbm, ⟨48, _⟩ => ⟨S1, .i32⟩
  | .hbm, ⟨49, _⟩ => ⟨S_, .i32⟩
  | .hbm, ⟨50, _⟩ => ⟨S131072x1, .i32⟩
  | .hbm, ⟨51, _⟩ => ⟨S131072x1, .i1⟩
  | .hbm, ⟨52, _⟩ => ⟨S1x1, .i32⟩
  | .hbm, ⟨53, _⟩ => ⟨S131072x1, .i32⟩
  | .hbm, ⟨54, _⟩ => ⟨S131072x1, .i1⟩
  | .hbm, ⟨55, _⟩ => ⟨S131072x1, .i1⟩
  | .hbm, ⟨56, _⟩ => ⟨S_, .i1⟩
  | .hbm, ⟨57, _⟩ => ⟨S131072, .i1⟩
  | .hbm, ⟨58, _⟩ => ⟨S131072x960, .f32⟩
  | .hbm, ⟨59, _⟩ => ⟨S131072x960, .i1⟩
  | .hbm, ⟨60, _⟩ => ⟨S_, .f32⟩
  | .hbm, ⟨61, _⟩ => ⟨S131072x960, .f32⟩
  | .hbm, ⟨62, _⟩ => ⟨S131072x960, .f32⟩
  | .hbm, ⟨63, _⟩ => ⟨S131072x960, .bf16⟩
  | .hbm, ⟨64, _⟩ => ⟨S_, .i32⟩
  | .hbm, ⟨65, _⟩ => ⟨S131072, .i32⟩
  | .hbm, ⟨66, _⟩ => ⟨S131072, .i1⟩
  | .hbm, ⟨67, _⟩ => ⟨S_, .i32⟩
  | .hbm, ⟨68, _⟩ => ⟨S131072, .i32⟩
  | .hbm, ⟨69, _⟩ => ⟨S131072, .i32⟩
  | .hbm, ⟨70, _⟩ => ⟨S131072, .i32⟩
  | .hbm, ⟨71, _⟩ => ⟨S131072x1, .i32⟩
  | .hbm, ⟨72, _⟩ => ⟨S1, .i32⟩
  | .hbm, ⟨73, _⟩ => ⟨S_, .i32⟩
  | .hbm, ⟨74, _⟩ => ⟨S131072x1, .i32⟩
  | .hbm, ⟨75, _⟩ => ⟨S131072x1, .i1⟩
  | .hbm, ⟨76, _⟩ => ⟨S1x1, .i32⟩
  | .hbm, ⟨77, _⟩ => ⟨S131072x1, .i32⟩
  | .hbm, ⟨78, _⟩ => ⟨S131072x1, .i1⟩
  | .hbm, ⟨79, _⟩ => ⟨S131072x1, .i1⟩
  | .hbm, ⟨80, _⟩ => ⟨S_, .i1⟩
  | .hbm, ⟨81, _⟩ => ⟨S131072, .i1⟩
  | .hbm, ⟨82, _⟩ => ⟨S131072x32, .f32⟩
  | .hbm, ⟨83, _⟩ => ⟨S131072x32, .i1⟩
  | .hbm, ⟨84, _⟩ => ⟨S_, .f32⟩
  | .hbm, ⟨85, _⟩ => ⟨S131072x32, .f32⟩
  | .hbm, ⟨86, _⟩ => ⟨S131072x32, .f32⟩
  | .hbm, ⟨87, _⟩ => ⟨S131072x32, .bf16⟩
  | .hbm, ⟨88, _⟩ => ⟨S_, .i32⟩
  | .hbm, ⟨89, _⟩ => ⟨S131072, .i32⟩
  | .hbm, ⟨90, _⟩ => ⟨S131072, .i1⟩
  | .hbm, ⟨91, _⟩ => ⟨S_, .i32⟩
  | .hbm, ⟨92, _⟩ => ⟨S131072, .i32⟩
  | .hbm, ⟨93, _⟩ => ⟨S131072, .i32⟩
  | .hbm, ⟨94, _⟩ => ⟨S131072, .i32⟩
  | .hbm, ⟨95, _⟩ => ⟨S131072x1, .i32⟩
  | .hbm, ⟨96, _⟩ => ⟨S1, .i32⟩
  | .hbm, ⟨97, _⟩ => ⟨S_, .i32⟩
  | .hbm, ⟨98, _⟩ => ⟨S131072x1, .i32⟩
  | .hbm, ⟨99, _⟩ => ⟨S131072x1, .i1⟩
  | .hbm, ⟨100, _⟩ => ⟨S1x1, .i32⟩
  | .hbm, ⟨101, _⟩ => ⟨S131072x1, .i32⟩
  | .hbm, ⟨102, _⟩ => ⟨S131072x1, .i1⟩
  | .hbm, ⟨103, _⟩ => ⟨S131072x1, .i1⟩
  | .hbm, ⟨104, _⟩ => ⟨S_, .i1⟩
  | .hbm, ⟨105, _⟩ => ⟨S131072, .i1⟩
  | .hbm, ⟨106, _⟩ => ⟨S131072x32, .f32⟩
  | .hbm, ⟨107, _⟩ => ⟨S131072x32, .i1⟩
  | .hbm, ⟨108, _⟩ => ⟨S_, .f32⟩
  | .hbm, ⟨109, _⟩ => ⟨S131072x32, .f32⟩
  | .hbm, ⟨110, _⟩ => ⟨S131072x32, .f32⟩
  | .hbm, ⟨111, _⟩ => ⟨S131072x32, .bf16⟩
  | .hbm, ⟨112, _⟩ => ⟨S960x960, .f32⟩
  | .hbm, ⟨113, _⟩ => ⟨S960x960, .bf16⟩
  | .hbm, ⟨114, _⟩ => ⟨S1024x512, .f32⟩
  | .hbm, ⟨115, _⟩ => ⟨S1024x512, .bf16⟩
  | .hbm, ⟨116, _⟩ => ⟨S512x256, .f32⟩
  | .hbm, ⟨117, _⟩ => ⟨S512x256, .bf16⟩
  | .hbm, ⟨118, _⟩ => ⟨S256x128, .f32⟩
  | .hbm, ⟨119, _⟩ => ⟨S256x128, .bf16⟩
  | .hbm, ⟨120, _⟩ => ⟨S128x1, .f32⟩
  | .hbm, ⟨121, _⟩ => ⟨S128x1, .bf16⟩
  | .hbm, ⟨122, _⟩ => ⟨S1x960, .f32⟩
  | .hbm, ⟨123, _⟩ => ⟨S1x512, .f32⟩
  | .hbm, ⟨124, _⟩ => ⟨S1x256, .f32⟩
  | .hbm, ⟨125, _⟩ => ⟨S1x128, .f32⟩
  | .hbm, ⟨126, _⟩ => ⟨S1x1, .f32⟩
  | .hbm, ⟨127, _⟩ => ⟨S131072x1, .f32⟩
  | .local _ .vmem, ⟨0, _⟩ => ⟨S1024x960, .bf16⟩
  | .local _ .vmem, ⟨1, _⟩ => ⟨S1024x960, .bf16⟩
  | .local _ .vmem, ⟨2, _⟩ => ⟨S1024x960, .bf16⟩
  | .local _ .vmem, ⟨3, _⟩ => ⟨S1024x960, .bf16⟩
  | .local _ .vmem, ⟨4, _⟩ => ⟨S1024x32, .bf16⟩
  | .local _ .vmem, ⟨5, _⟩ => ⟨S1024x32, .bf16⟩
  | .local _ .vmem, ⟨6, _⟩ => ⟨S1024x32, .bf16⟩
  | .local _ .vmem, ⟨7, _⟩ => ⟨S1024x32, .bf16⟩
  | .local _ .vmem, ⟨8, _⟩ => ⟨S960x960, .bf16⟩
  | .local _ .vmem, ⟨9, _⟩ => ⟨S1x960, .f32⟩
  | .local _ .vmem, ⟨10, _⟩ => ⟨S1024x512, .bf16⟩
  | .local _ .vmem, ⟨11, _⟩ => ⟨S1x512, .f32⟩
  | .local _ .vmem, ⟨12, _⟩ => ⟨S512x256, .bf16⟩
  | .local _ .vmem, ⟨13, _⟩ => ⟨S1x256, .f32⟩
  | .local _ .vmem, ⟨14, _⟩ => ⟨S256x128, .bf16⟩
  | .local _ .vmem, ⟨15, _⟩ => ⟨S1x128, .f32⟩
  | .local _ .vmem, ⟨16, _⟩ => ⟨S128x1, .bf16⟩
  | .local _ .vmem, ⟨17, _⟩ => ⟨S1x1, .f32⟩
  | .local _ .vmem, ⟨18, _⟩ => ⟨S1024x1, .f32⟩
  | .local _ .vmem, ⟨19, _⟩ => ⟨S1024x1, .f32⟩
  | _, _ => ⟨S131072, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_call0_c : Ref sig .tc := ⟨.hbm, 16, rfl⟩
abbrev main_call0_v0 : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_c_1 : Ref sig .tc := ⟨.hbm, 24, rfl⟩
abbrev main_call0_c_2 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_3 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_call0_cst : Ref sig .tc := ⟨.hbm, 36, rfl⟩
abbrev main_call0_v15 : Ref sig .tc := ⟨.hbm, 37, rfl⟩
abbrev main_v0 : Ref sig .tc := ⟨.hbm, 38, rfl⟩
abbrev main_v1 : Ref sig .tc := ⟨.hbm, 39, rfl⟩
abbrev main_call1_c : Ref sig .tc := ⟨.hbm, 40, rfl⟩
abbrev main_call1_v0 : Ref sig .tc := ⟨.hbm, 41, rfl⟩
abbrev main_call1_v1 : Ref sig .tc := ⟨.hbm, 42, rfl⟩
abbrev main_call1_c_0 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_v5 : Ref sig .tc := ⟨.hbm, 47, rfl⟩
abbrev main_call1_c_1 : Ref sig .tc := ⟨.hbm, 48, rfl⟩
abbrev main_call1_c_2 : Ref sig .tc := ⟨.hbm, 49, rfl⟩
abbrev main_call1_v6 : Ref sig .tc := ⟨.hbm, 50, rfl⟩
abbrev main_call1_v7 : Ref sig .tc := ⟨.hbm, 51, rfl⟩
abbrev main_call1_v8 : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_call1_c_3 : Ref sig .tc := ⟨.hbm, 56, rfl⟩
abbrev main_call1_v12 : Ref sig .tc := ⟨.hbm, 57, rfl⟩
abbrev main_call1_v13 : Ref sig .tc := ⟨.hbm, 58, rfl⟩
abbrev main_call1_v14 : Ref sig .tc := ⟨.hbm, 59, rfl⟩
abbrev main_call1_cst : Ref sig .tc := ⟨.hbm, 60, rfl⟩
abbrev main_call1_v15 : Ref sig .tc := ⟨.hbm, 61, rfl⟩
abbrev main_v2 : Ref sig .tc := ⟨.hbm, 62, rfl⟩
abbrev main_v3 : Ref sig .tc := ⟨.hbm, 63, rfl⟩
abbrev main_call2_c : Ref sig .tc := ⟨.hbm, 64, rfl⟩
abbrev main_call2_v0 : Ref sig .tc := ⟨.hbm, 65, rfl⟩
abbrev main_call2_v1 : Ref sig .tc := ⟨.hbm, 66, rfl⟩
abbrev main_call2_c_0 : Ref sig .tc := ⟨.hbm, 67, rfl⟩
abbrev main_call2_v2 : Ref sig .tc := ⟨.hbm, 68, rfl⟩
abbrev main_call2_v3 : Ref sig .tc := ⟨.hbm, 69, rfl⟩
abbrev main_call2_v4 : Ref sig .tc := ⟨.hbm, 70, rfl⟩
abbrev main_call2_v5 : Ref sig .tc := ⟨.hbm, 71, rfl⟩
abbrev main_call2_c_1 : Ref sig .tc := ⟨.hbm, 72, rfl⟩
abbrev main_call2_c_2 : Ref sig .tc := ⟨.hbm, 73, rfl⟩
abbrev main_call2_v6 : Ref sig .tc := ⟨.hbm, 74, rfl⟩
abbrev main_call2_v7 : Ref sig .tc := ⟨.hbm, 75, rfl⟩
abbrev main_call2_v8 : Ref sig .tc := ⟨.hbm, 76, rfl⟩
abbrev main_call2_v9 : Ref sig .tc := ⟨.hbm, 77, rfl⟩
abbrev main_call2_v10 : Ref sig .tc := ⟨.hbm, 78, rfl⟩
abbrev main_call2_v11 : Ref sig .tc := ⟨.hbm, 79, rfl⟩
abbrev main_call2_c_3 : Ref sig .tc := ⟨.hbm, 80, rfl⟩
abbrev main_call2_v12 : Ref sig .tc := ⟨.hbm, 81, rfl⟩
abbrev main_call2_v13 : Ref sig .tc := ⟨.hbm, 82, rfl⟩
abbrev main_call2_v14 : Ref sig .tc := ⟨.hbm, 83, rfl⟩
abbrev main_call2_cst : Ref sig .tc := ⟨.hbm, 84, rfl⟩
abbrev main_call2_v15 : Ref sig .tc := ⟨.hbm, 85, rfl⟩
abbrev main_v4 : Ref sig .tc := ⟨.hbm, 86, rfl⟩
abbrev main_v5 : Ref sig .tc := ⟨.hbm, 87, rfl⟩
abbrev main_call3_c : Ref sig .tc := ⟨.hbm, 88, rfl⟩
abbrev main_call3_v0 : Ref sig .tc := ⟨.hbm, 89, rfl⟩
abbrev main_call3_v1 : Ref sig .tc := ⟨.hbm, 90, rfl⟩
abbrev main_call3_c_0 : Ref sig .tc := ⟨.hbm, 91, rfl⟩
abbrev main_call3_v2 : Ref sig .tc := ⟨.hbm, 92, rfl⟩
abbrev main_call3_v3 : Ref sig .tc := ⟨.hbm, 93, rfl⟩
abbrev main_call3_v4 : Ref sig .tc := ⟨.hbm, 94, rfl⟩
abbrev main_call3_v5 : Ref sig .tc := ⟨.hbm, 95, rfl⟩
abbrev main_call3_c_1 : Ref sig .tc := ⟨.hbm, 96, rfl⟩
abbrev main_call3_c_2 : Ref sig .tc := ⟨.hbm, 97, rfl⟩
abbrev main_call3_v6 : Ref sig .tc := ⟨.hbm, 98, rfl⟩
abbrev main_call3_v7 : Ref sig .tc := ⟨.hbm, 99, rfl⟩
abbrev main_call3_v8 : Ref sig .tc := ⟨.hbm, 100, rfl⟩
abbrev main_call3_v9 : Ref sig .tc := ⟨.hbm, 101, rfl⟩
abbrev main_call3_v10 : Ref sig .tc := ⟨.hbm, 102, rfl⟩
abbrev main_call3_v11 : Ref sig .tc := ⟨.hbm, 103, rfl⟩
abbrev main_call3_c_3 : Ref sig .tc := ⟨.hbm, 104, rfl⟩
abbrev main_call3_v12 : Ref sig .tc := ⟨.hbm, 105, rfl⟩
abbrev main_call3_v13 : Ref sig .tc := ⟨.hbm, 106, rfl⟩
abbrev main_call3_v14 : Ref sig .tc := ⟨.hbm, 107, rfl⟩
abbrev main_call3_cst : Ref sig .tc := ⟨.hbm, 108, rfl⟩
abbrev main_call3_v15 : Ref sig .tc := ⟨.hbm, 109, rfl⟩
abbrev main_v6 : Ref sig .tc := ⟨.hbm, 110, rfl⟩
abbrev main_v7 : Ref sig .tc := ⟨.hbm, 111, rfl⟩
abbrev main_v8 : Ref sig .tc := ⟨.hbm, 112, rfl⟩
abbrev main_v9 : Ref sig .tc := ⟨.hbm, 113, rfl⟩
abbrev main_v10 : Ref sig .tc := ⟨.hbm, 114, rfl⟩
abbrev main_v11 : Ref sig .tc := ⟨.hbm, 115, rfl⟩
abbrev main_v12 : Ref sig .tc := ⟨.hbm, 116, rfl⟩
abbrev main_v13 : Ref sig .tc := ⟨.hbm, 117, rfl⟩
abbrev main_v14 : Ref sig .tc := ⟨.hbm, 118, rfl⟩
abbrev main_v15 : Ref sig .tc := ⟨.hbm, 119, rfl⟩
abbrev main_v16 : Ref sig .tc := ⟨.hbm, 120, rfl⟩
abbrev main_v17 : Ref sig .tc := ⟨.hbm, 121, rfl⟩
abbrev main_v18 : Ref sig .tc := ⟨.hbm, 122, rfl⟩
abbrev main_v19 : Ref sig .tc := ⟨.hbm, 123, rfl⟩
abbrev main_v20 : Ref sig .tc := ⟨.hbm, 124, rfl⟩
abbrev main_v21 : Ref sig .tc := ⟨.hbm, 125, rfl⟩
abbrev main_v22 : Ref sig .tc := ⟨.hbm, 126, rfl⟩
abbrev main_v23 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg14_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem14_1 : DmaSem sig := 19

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x960 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x960 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x32 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x32 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S960x960 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x960 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x1 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S1024x1 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  bcast_S_S131072 : S_.BroadcastsInDim S131072 (![] : Fin 0 → Fin S131072.rank)
  bcast_S131072_S131072x1_0 : S131072.BroadcastsInDim S131072x1 (![0] : Fin 1 → Fin S131072x1.rank)
  bcast_S_S131072x1 : S_.BroadcastsInDim S131072x1 (![] : Fin 0 → Fin S131072x1.rank)
  bcast_S1_S1x1_1 : S1.BroadcastsInDim S1x1 (![1] : Fin 1 → Fin S1x1.rank)
  bcast_S1x1_S131072x1_0_1 : S1x1.BroadcastsInDim S131072x1 (![0, 1] : Fin 2 → Fin S131072x1.rank)
  reducesTo_S131072x1_S131072_d1 : S131072x1.ReducesTo [1] S131072
  h_S_ : 0 < S_.numel
  bcast_S131072_S131072x960_0 : S131072.BroadcastsInDim S131072x960 (![0] : Fin 1 → Fin S131072x960.rank)
  bcast_S_S131072x960 : S_.BroadcastsInDim S131072x960 (![] : Fin 0 → Fin S131072x960.rank)
  bitsLt_bf16_f32 : FTy.bits .bf16 < FTy.bits .f32
  bcast_S131072_S131072x32_0 : S131072.BroadcastsInDim S131072x32 (![0] : Fin 1 → Fin S131072x32.rank)
  bcast_S_S131072x32 : S_.BroadcastsInDim S131072x32 (![] : Fin 0 → Fin S131072x32.rank)
  transposes_S960x960_S960x960_1_0 : S960x960.Transposes [1, 0] S960x960
  transposes_S512x1024_S1024x512_1_0 : S512x1024.Transposes [1, 0] S1024x512
  transposes_S256x512_S512x256_1_0 : S256x512.Transposes [1, 0] S512x256
  transposes_S128x256_S256x128_1_0 : S128x256.Transposes [1, 0] S256x128
  transposes_S1x128_S128x1_1_0 : S1x128.Transposes [1, 0] S128x1
  shapeCasts_S960_S1x960 : S960.ShapeCasts S1x960
  shapeCasts_S512_S1x512 : S512.ShapeCasts S1x512
  shapeCasts_S256_S1x256 : S256.ShapeCasts S1x256
  shapeCasts_S128_S1x128 : S128.ShapeCasts S1x128
  shapeCasts_S1_S1x1 : S1.ShapeCasts S1x1
  inb_S1024x960_S1024x960_0_0 : ∀ a, (![0, 0] : Fin 2 → Nat) a + S1024x960.size a ≤ S1024x960.size a
  h_S1024x960 : 0 < S1024x960.numel
  shapeCasts_S1024x960_S1024x960 : S1024x960.ShapeCasts S1024x960
  inb_S960x960_S960x960_0_0 : ∀ a, (![0, 0] : Fin 2 → Nat) a + S960x960.size a ≤ S960x960.size a
  h_S960x960 : 0 < S960x960.numel
  shapeCasts_S960x960_S960x960 : S960x960.ShapeCasts S960x960
  inb_S1x960_S1x960_0_0 : ∀ a, (![0, 0] : Fin 2 → Nat) a + S1x960.size a ≤ S1x960.size a
  h_S1x960 : 0 < S1x960.numel
  shapeCasts_S1x960_S1x960 : S1x960.ShapeCasts S1x960
  broadcasts_S1x960_S1024x960 : S1x960.Broadcasts S1024x960
  inb_S1024x32_S1024x32_0_0 : ∀ a, (![0, 0] : Fin 2 → Nat) a + S1024x32.size a ≤ S1024x32.size a
  h_S1024x32 : 0 < S1024x32.numel
  shapeCasts_S1024x32_S1024x32 : S1024x32.ShapeCasts S1024x32
  concatenates_S1024x32_S1024x32_S1024x960_S1024x1024_d1 : Shape.Concatenates [S1024x32, S1024x32, S1024x960] S1024x1024 1
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1024x1 : S1x1.Broadcasts S1024x1
  inb_S1024x1_S1024x1_0_0 : ∀ a, (![0, 0] : Fin 2 → Nat) a + S1024x1.size a ≤ S1024x1.size a
  h_S1024x1 : 0 < S1024x1.numel
  gather_S100000x960_S131072x1_S131072x960_1_0_n_n_0_1_1960_wf : GatherDims.WF S100000x960 S131072x1 S131072x960 [1] [0] [] [0] [] 1 ![1, 960]
  gather_S50000x960_S131072x1_S131072x960_1_0_n_n_0_1_1960_wf : GatherDims.WF S50000x960 S131072x1 S131072x960 [1] [0] [] [0] [] 1 ![1, 960]
  gather_S100000x32_S131072x1_S131072x32_1_0_n_n_0_1_132_wf : GatherDims.WF S100000x32 S131072x1 S131072x32 [1] [0] [] [0] [] 1 ![1, 32]
  gather_S50000x32_S131072x1_S131072x32_1_0_n_n_0_1_132_wf : GatherDims.WF S50000x32 S131072x1 S131072x32 [1] [0] [] [0] [] 1 ![1, 32]
  dot_S1024x960_S960x960_S1024x960_1_0_0_1_n_n_wf : DotDims.WF S1024x960 S960x960 S1024x960 [1] [0] [0] [1] [] []
  dot_S1024x1024_S1024x512_S1024x512_1_0_0_1_n_n_wf : DotDims.WF S1024x1024 S1024x512 S1024x512 [1] [0] [0] [1] [] []
  dot_S1024x512_S512x256_S1024x256_1_0_0_1_n_n_wf : DotDims.WF S1024x512 S512x256 S1024x256 [1] [0] [0] [1] [] []
  dot_S1024x256_S256x128_S1024x128_1_0_0_1_n_n_wf : DotDims.WF S1024x256 S256x128 S1024x128 [1] [0] [0] [1] [] []
  dot_S1024x128_S128x1_S1024x1_1_0_0_1_n_n_wf : DotDims.WF S1024x128 S128x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x960.size a ≤ S131072x960.size a
  hwx0_0 : ∀ i : grid0.Coords, EltTy.bits .bf16 = 32 ∨ (Rect.block (s := S131072x960) S1024x960.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x960.size a ≤ S131072x960.size a
  hwx0_1 : ∀ i : grid0.Coords, EltTy.bits .bf16 = 32 ∨ (Rect.block (s := S131072x960) S1024x960.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x32.size a ≤ S131072x32.size a
  hwx0_2 : ∀ i : grid0.Coords, EltTy.bits .bf16 = 32 ∨ (Rect.block (s := S131072x32) S1024x32.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x32.size a ≤ S131072x32.size a
  hwx0_3 : ∀ i : grid0.Coords, EltTy.bits .bf16 = 32 ∨ (Rect.block (s := S131072x32) S1024x32.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S960x960.size a ≤ S960x960.size a
  hwx0_4 : ∀ i : grid0.Coords, EltTy.bits .bf16 = 32 ∨ (Rect.block (s := S960x960) S960x960.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x960.size a ≤ S1x960.size a
  hwx0_5 : ∀ i : grid0.Coords, EltTy.bits .f32 = 32 ∨ (Rect.block (s := S1x960) S1x960.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x512.size a ≤ S1024x512.size a
  hwx0_6 : ∀ i : grid0.Coords, EltTy.bits .bf16 = 32 ∨ (Rect.block (s := S1024x512) S1024x512.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x512.size a
  hwx0_7 : ∀ i : grid0.Coords, EltTy.bits .f32 = 32 ∨ (Rect.block (s := S1x512) S1x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512x256.size a ≤ S512x256.size a
  hwx0_8 : ∀ i : grid0.Coords, EltTy.bits .bf16 = 32 ∨ (Rect.block (s := S512x256) S512x256.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x256.size a ≤ S1x256.size a
  hwx0_9 : ∀ i : grid0.Coords, EltTy.bits .f32 = 32 ∨ (Rect.block (s := S1x256) S1x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256x128.size a ≤ S256x128.size a
  hwx0_10 : ∀ i : grid0.Coords, EltTy.bits .bf16 = 32 ∨ (Rect.block (s := S256x128) S256x128.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x128.size a ≤ S1x128.size a
  hwx0_11 : ∀ i : grid0.Coords, EltTy.bits .f32 = 32 ∨ (Rect.block (s := S1x128) S1x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128x1.size a ≤ S128x1.size a
  hwx0_12 : ∀ i : grid0.Coords, EltTy.bits .bf16 = 32 ∨ (Rect.block (s := S128x1) S128x1.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x1.size a ≤ S1x1.size a
  hwx0_13 : ∀ i : grid0.Coords, EltTy.bits .f32 = 32 ∨ (Rect.block (s := S1x1) S1x1.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1024x1.size a ≤ S131072x1.size a
  hwx0_14 : ∀ i : grid0.Coords, EltTy.bits .f32 = 32 ∨ (Rect.block (s := S131072x1) S1024x1.size (cc0_transform_14 i) (hinb0_14 i)).WholeWords (EltTy.packing .f32)

variable [Facts₀]

def gather_S100000x960_S131072x1_S131072x960_1_0_n_n_0_1_1960 : GatherDims S100000x960 S131072x1 S131072x960 where
  offsetDims := [1]
  collapsedSliceDims := [0]
  operandBatchingDims := []
  startIndicesBatchingDims := []
  startIndexMap := [0]
  indexVectorDim := 1
  sliceSizes := ![1, 960]
  wf := gather_S100000x960_S131072x1_S131072x960_1_0_n_n_0_1_1960_wf
def gather_S50000x960_S131072x1_S131072x960_1_0_n_n_0_1_1960 : GatherDims S50000x960 S131072x1 S131072x960 where
  offsetDims := [1]
  collapsedSliceDims := [0]
  operandBatchingDims := []
  startIndicesBatchingDims := []
  startIndexMap := [0]
  indexVectorDim := 1
  sliceSizes := ![1, 960]
  wf := gather_S50000x960_S131072x1_S131072x960_1_0_n_n_0_1_1960_wf
def gather_S100000x32_S131072x1_S131072x32_1_0_n_n_0_1_132 : GatherDims S100000x32 S131072x1 S131072x32 where
  offsetDims := [1]
  collapsedSliceDims := [0]
  operandBatchingDims := []
  startIndicesBatchingDims := []
  startIndexMap := [0]
  indexVectorDim := 1
  sliceSizes := ![1, 32]
  wf := gather_S100000x32_S131072x1_S131072x32_1_0_n_n_0_1_132_wf
def gather_S50000x32_S131072x1_S131072x32_1_0_n_n_0_1_132 : GatherDims S50000x32 S131072x1 S131072x32 where
  offsetDims := [1]
  collapsedSliceDims := [0]
  operandBatchingDims := []
  startIndicesBatchingDims := []
  startIndexMap := [0]
  indexVectorDim := 1
  sliceSizes := ![1, 32]
  wf := gather_S50000x32_S131072x1_S131072x32_1_0_n_n_0_1_132_wf
def dot_S1024x960_S960x960_S1024x960_1_0_0_1_n_n : DotDims S1024x960 S960x960 S1024x960 where
  lhsContracting := [1]
  rhsContracting := [0]
  lhsNonContracting := [0]
  rhsNonContracting := [1]
  lhsBatch := []
  rhsBatch := []
  wf := dot_S1024x960_S960x960_S1024x960_1_0_0_1_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def dot_S1024x128_S128x1_S1024x1_1_0_0_1_n_n : DotDims S1024x128 S128x1 S1024x1 where
  lhsContracting := [1]
  rhsContracting := [0]
  lhsNonContracting := [0]
  rhsNonContracting := [1]
  lhsBatch := []
  rhsBatch := []
  wf := dot_S1024x128_S128x1_S1024x1_1_0_0_1_n_n_wf

abbrev win0_0 : Pipeline.Window sig grid0 :=
  Pipeline.Window.ofSpec (Memref.whole main_v1) S1024x960.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x960.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1024x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1024x32.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9) S960x960.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S1x960.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S1024x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v19) S1x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v13) S512x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v20) S1x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v15) S256x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v21) S1x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v17) S128x1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v22) S1x1.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v23) S1024x1.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S131072 : Shape := ⟨1, ![131072]⟩
abbrev S100000x960 : Shape := ⟨2, ![100000, 960]⟩
abbrev S50000x960 : Shape := ⟨2, ![50000, 960]⟩
abbrev S100000x32 : Shape := ⟨2, ![100000, 32]⟩
abbrev S50000x32 : Shape := ⟨2, ![50000, 32]⟩
abbrev S960x960 : Shape := ⟨2, ![960, 960]⟩
abbrev S960 : Shape := ⟨1, ![960]⟩
abbrev S512x1024 : Shape := ⟨2, ![512, 1024]⟩
abbrev S512 : Shape := ⟨1, ![512]⟩
abbrev S256x512 : Shape := ⟨2, ![256, 512]⟩
abbrev S256 : Shape := ⟨1, ![256]⟩
abbrev S128x256 : Shape := ⟨2, ![128, 256]⟩
abbrev S128 : Shape := ⟨1, ![128]⟩
abbrev S1x128 : Shape := ⟨2, ![1, 128]⟩
abbrev S1 : Shape := ⟨1, ![1]⟩
abbrev S_ : Shape := ⟨0, ![]⟩
abbrev S131072x1 : Shape := ⟨2, ![131072, 1]⟩
abbrev S131072x960 : Shape := ⟨2, ![131072, 960]⟩
abbrev S1x960 : Shape := ⟨2, ![1, 960]⟩
abbrev S131072x32 : Shape := ⟨2, ![131072, 32]⟩
abbrev S131072x1024 : Shape := ⟨2, ![131072, 1024]⟩
abbrev S1024x512 : Shape := ⟨2, ![1024, 512]⟩
abbrev S131072x512 : Shape := ⟨2, ![131072, 512]⟩
abbrev S1x512 : Shape := ⟨2, ![1, 512]⟩
abbrev S512x256 : Shape := ⟨2, ![512, 256]⟩
abbrev S131072x256 : Shape := ⟨2, ![131072, 256]⟩
abbrev S1x256 : Shape := ⟨2, ![1, 256]⟩
abbrev S256x128 : Shape := ⟨2, ![256, 128]⟩
abbrev S131072x128 : Shape := ⟨2, ![131072, 128]⟩
abbrev S128x1 : Shape := ⟨2, ![128, 1]⟩
abbrev S1x1 : Shape := ⟨2, ![1, 1]⟩

abbrev nBuf : Space → Nat
  | .hbm => 90
  | .vmem => 0
  | .smem => 0
  | _ => 0

abbrev bufTy : (tb : Table) → Fin (tcTables nBuf tb) → BufTy
  | .hbm, ⟨0, _⟩ => ⟨S131072, .i32⟩
  | .hbm, ⟨1, _⟩ => ⟨S131072, .i32⟩
  | .hbm, ⟨2, _⟩ => ⟨S100000x960, .f32⟩
  | .hbm, ⟨3, _⟩ => ⟨S50000x960, .f32⟩
  | .hbm, ⟨4, _⟩ => ⟨S100000x32, .f32⟩
  | .hbm, ⟨5, _⟩ => ⟨S50000x32, .f32⟩
  | .hbm, ⟨6, _⟩ => ⟨S960x960, .f32⟩
  | .hbm, ⟨7, _⟩ => ⟨S960, .f32⟩
  | .hbm, ⟨8, _⟩ => ⟨S512x1024, .f32⟩
  | .hbm, ⟨9, _⟩ => ⟨S512, .f32⟩
  | .hbm, ⟨10, _⟩ => ⟨S256x512, .f32⟩
  | .hbm, ⟨11, _⟩ => ⟨S256, .f32⟩
  | .hbm, ⟨12, _⟩ => ⟨S128x256, .f32⟩
  | .hbm, ⟨13, _⟩ => ⟨S128, .f32⟩
  | .hbm, ⟨14, _⟩ => ⟨S1x128, .f32⟩
  | .hbm, ⟨15, _⟩ => ⟨S1, .f32⟩
  | .hbm, ⟨16, _⟩ => ⟨S_, .i32⟩
  | .hbm, ⟨17, _⟩ => ⟨S131072, .i32⟩
  | .hbm, ⟨18, _⟩ => ⟨S131072, .i1⟩
  | .hbm, ⟨19, _⟩ => ⟨S_, .i32⟩
  | .hbm, ⟨20, _⟩ => ⟨S131072, .i32⟩
  | .hbm, ⟨21, _⟩ => ⟨S131072, .i32⟩
  | .hbm, ⟨22, _⟩ => ⟨S131072, .i32⟩
  | .hbm, ⟨23, _⟩ => ⟨S131072x1, .i32⟩
  | .hbm, ⟨24, _⟩ => ⟨S131072x960, .f32⟩
  | .hbm, ⟨25, _⟩ => ⟨S_, .i32⟩
  | .hbm, ⟨26, _⟩ => ⟨S131072, .i32⟩
  | .hbm, ⟨27, _⟩ => ⟨S131072, .i1⟩
  | .hbm, ⟨28, _⟩ => ⟨S_, .i32⟩
  | .hbm, ⟨29, _⟩ => ⟨S131072, .i32⟩
  | .hbm, ⟨30, _⟩ => ⟨S131072, .i32⟩
  | .hbm, ⟨31, _⟩ => ⟨S131072, .i32⟩
  | .hbm, ⟨32, _⟩ => ⟨S131072x1, .i32⟩
  | .hbm, ⟨33, _⟩ => ⟨S131072x960, .f32⟩
  | .hbm, ⟨34, _⟩ => ⟨S960x960, .f32⟩
  | .hbm, ⟨35, _⟩ => ⟨S131072x960, .f32⟩
  | .hbm, ⟨36, _⟩ => ⟨S1x960, .f32⟩
  | .hbm, ⟨37, _⟩ => ⟨S131072x960, .f32⟩
  | .hbm, ⟨38, _⟩ => ⟨S131072x960, .f32⟩
  | .hbm, ⟨39, _⟩ => ⟨S960x960, .f32⟩
  | .hbm, ⟨40, _⟩ => ⟨S131072x960, .f32⟩
  | .hbm, ⟨41, _⟩ => ⟨S1x960, .f32⟩
  | .hbm, ⟨42, _⟩ => ⟨S131072x960, .f32⟩
  | .hbm, ⟨43, _⟩ => ⟨S131072x960, .f32⟩
  | .hbm, ⟨44, _⟩ => ⟨S131072x960, .f32⟩
  | .hbm, ⟨45, _⟩ => ⟨S_, .i32⟩
  | .hbm, ⟨46, _⟩ => ⟨S131072, .i32⟩
  | .hbm, ⟨47, _⟩ => ⟨S131072, .i1⟩
  | .hbm, ⟨48, _⟩ => ⟨S_, .i32⟩
  | .hbm, ⟨49, _⟩ => ⟨S131072, .i32⟩
  | .hbm, ⟨50, _⟩ => ⟨S131072, .i32⟩
  | .hbm, ⟨51, _⟩ => ⟨S131072, .i32⟩
  | .hbm, ⟨52, _⟩ => ⟨S131072x1, .i32⟩
  | .hbm, ⟨53, _⟩ => ⟨S131072x32, .f32⟩
  | .hbm, ⟨54, _⟩ => ⟨S_, .i32⟩
  | .hbm, ⟨55, _⟩ => ⟨S131072, .i32⟩
  | .hbm, ⟨56, _⟩ => ⟨S131072, .i1⟩
  | .hbm, ⟨57, _⟩ => ⟨S_, .i32⟩
  | .hbm, ⟨58, _⟩ => ⟨S131072, .i32⟩
  | .hbm, ⟨59, _⟩ => ⟨S131072, .i32⟩
  | .hbm, ⟨60, _⟩ => ⟨S131072, .i32⟩
  | .hbm, ⟨61, _⟩ => ⟨S131072x1, .i32⟩
  | .hbm, ⟨62, _⟩ => ⟨S131072x32, .f32⟩
  | .hbm, ⟨63, _⟩ => ⟨S131072x1024, .f32⟩
  | .hbm, ⟨64, _⟩ => ⟨S1024x512, .f32⟩
  | .hbm, ⟨65, _⟩ => ⟨S131072x512, .f32⟩
  | .hbm, ⟨66, _⟩ => ⟨S1x512, .f32⟩
  | .hbm, ⟨67, _⟩ => ⟨S131072x512, .f32⟩
  | .hbm, ⟨68, _⟩ => ⟨S131072x512, .f32⟩
  | .hbm, ⟨69, _⟩ => ⟨S131072x512, .f32⟩
  | .hbm, ⟨70, _⟩ => ⟨S512x256, .f32⟩
  | .hbm, ⟨71, _⟩ => ⟨S131072x256, .f32⟩
  | .hbm, ⟨72, _⟩ => ⟨S1x256, .f32⟩
  | .hbm, ⟨73, _⟩ => ⟨S131072x256, .f32⟩
  | .hbm, ⟨74, _⟩ => ⟨S131072x256, .f32⟩
  | .hbm, ⟨75, _⟩ => ⟨S131072x256, .f32⟩
  | .hbm, ⟨76, _⟩ => ⟨S256x128, .f32⟩
  | .hbm, ⟨77, _⟩ => ⟨S131072x128, .f32⟩
  | .hbm, ⟨78, _⟩ => ⟨S1x128, .f32⟩
  | .hbm, ⟨79, _⟩ => ⟨S131072x128, .f32⟩
  | .hbm, ⟨80, _⟩ => ⟨S131072x128, .f32⟩
  | .hbm, ⟨81, _⟩ => ⟨S131072x128, .f32⟩
  | .hbm, ⟨82, _⟩ => ⟨S128x1, .f32⟩
  | .hbm, ⟨83, _⟩ => ⟨S131072x1, .f32⟩
  | .hbm, ⟨84, _⟩ => ⟨S1x1, .f32⟩
  | .hbm, ⟨85, _⟩ => ⟨S131072x1, .f32⟩
  | .hbm, ⟨86, _⟩ => ⟨S131072x1, .f32⟩
  | .hbm, ⟨87, _⟩ => ⟨S_, .f32⟩
  | .hbm, ⟨88, _⟩ => ⟨S131072x1, .f32⟩
  | .hbm, ⟨89, _⟩ => ⟨S131072x1, .f32⟩
  | _, _ => ⟨S131072, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_c_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_c_1 : Ref sig .tc := ⟨.hbm, 25, rfl⟩
abbrev main_v7 : Ref sig .tc := ⟨.hbm, 26, rfl⟩
abbrev main_v8 : Ref sig .tc := ⟨.hbm, 27, rfl⟩
abbrev main_c_2 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_c_3 : Ref sig .tc := ⟨.hbm, 45, rfl⟩
abbrev main_v25 : Ref sig .tc := ⟨.hbm, 46, rfl⟩
abbrev main_v26 : Ref sig .tc := ⟨.hbm, 47, rfl⟩
abbrev main_c_4 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_c_5 : Ref sig .tc := ⟨.hbm, 54, rfl⟩
abbrev main_v32 : Ref sig .tc := ⟨.hbm, 55, rfl⟩
abbrev main_v33 : Ref sig .tc := ⟨.hbm, 56, rfl⟩
abbrev main_c_6 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst : Ref sig .tc := ⟨.hbm, 87, rfl⟩
abbrev main_v63 : Ref sig .tc := ⟨.hbm, 88, rfl⟩
abbrev main_v64 : Ref sig .tc := ⟨.hbm, 89, rfl⟩

abbrev nD : Nat := 1
abbrev τ : Topo := Topo.v7x

variable {F : FTy → Type} [FloatOps F]

class Facts₀ : Prop where
  bcast_S_S131072 : S_.BroadcastsInDim S131072 (![] : Fin 0 → Fin S131072.rank)
  bcast_S131072_S131072x1_0 : S131072.BroadcastsInDim S131072x1 (![0] : Fin 1 → Fin S131072x1.rank)
  transposes_S960x960_S960x960_1_0 : S960x960.Transposes [1, 0] S960x960
  bcast_S960_S1x960_1 : S960.BroadcastsInDim S1x960 (![1] : Fin 1 → Fin S1x960.rank)
  bcast_S1x960_S131072x960_0_1 : S1x960.BroadcastsInDim S131072x960 (![0, 1] : Fin 2 → Fin S131072x960.rank)
  concatenates_S131072x32_S131072x32_S131072x960_S131072x1024_d1 : Shape.Concatenates [S131072x32, S131072x32, S131072x960] S131072x1024 1
  transposes_S512x1024_S1024x512_1_0 : S512x1024.Transposes [1, 0] S1024x512
  bcast_S512_S1x512_1 : S512.BroadcastsInDim S1x512 (![1] : Fin 1 → Fin S1x512.rank)
  bcast_S1x512_S131072x512_0_1 : S1x512.BroadcastsInDim S131072x512 (![0, 1] : Fin 2 → Fin S131072x512.rank)
  transposes_S256x512_S512x256_1_0 : S256x512.Transposes [1, 0] S512x256
  bcast_S256_S1x256_1 : S256.BroadcastsInDim S1x256 (![1] : Fin 1 → Fin S1x256.rank)
  bcast_S1x256_S131072x256_0_1 : S1x256.BroadcastsInDim S131072x256 (![0, 1] : Fin 2 → Fin S131072x256.rank)
  transposes_S128x256_S256x128_1_0 : S128x256.Transposes [1, 0] S256x128
  bcast_S128_S1x128_1 : S128.BroadcastsInDim S1x128 (![1] : Fin 1 → Fin S1x128.rank)
  bcast_S1x128_S131072x128_0_1 : S1x128.BroadcastsInDim S131072x128 (![0, 1] : Fin 2 → Fin S131072x128.rank)
  transposes_S1x128_S128x1_1_0 : S1x128.Transposes [1, 0] S128x1
  bcast_S1_S1x1_1 : S1.BroadcastsInDim S1x1 (![1] : Fin 1 → Fin S1x1.rank)
  bcast_S1x1_S131072x1_0_1 : S1x1.BroadcastsInDim S131072x1 (![0, 1] : Fin 2 → Fin S131072x1.rank)
  bcast_S_S131072x1 : S_.BroadcastsInDim S131072x1 (![] : Fin 0 → Fin S131072x1.rank)
  gather_S100000x960_S131072x1_S131072x960_1_0_n_n_0_1_1960_wf : GatherDims.WF S100000x960 S131072x1 S131072x960 [1] [0] [] [0] [] 1 ![1, 960]
  gather_S50000x960_S131072x1_S131072x960_1_0_n_n_0_1_1960_wf : GatherDims.WF S50000x960 S131072x1 S131072x960 [1] [0] [] [0] [] 1 ![1, 960]
  dot_S131072x960_S960x960_S131072x960_1_0_0_1_n_n_wf : DotDims.WF S131072x960 S960x960 S131072x960 [1] [0] [0] [1] [] []
  gather_S100000x32_S131072x1_S131072x32_1_0_n_n_0_1_132_wf : GatherDims.WF S100000x32 S131072x1 S131072x32 [1] [0] [] [0] [] 1 ![1, 32]
  gather_S50000x32_S131072x1_S131072x32_1_0_n_n_0_1_132_wf : GatherDims.WF S50000x32 S131072x1 S131072x32 [1] [0] [] [0] [] 1 ![1, 32]
  dot_S131072x1024_S1024x512_S131072x512_1_0_0_1_n_n_wf : DotDims.WF S131072x1024 S1024x512 S131072x512 [1] [0] [0] [1] [] []
  dot_S131072x512_S512x256_S131072x256_1_0_0_1_n_n_wf : DotDims.WF S131072x512 S512x256 S131072x256 [1] [0] [0] [1] [] []
  dot_S131072x256_S256x128_S131072x128_1_0_0_1_n_n_wf : DotDims.WF S131072x256 S256x128 S131072x128 [1] [0] [0] [1] [] []
  dot_S131072x128_S128x1_S131072x1_1_0_0_1_n_n_wf : DotDims.WF S131072x128 S128x1 S131072x1 [1] [0] [0] [1] [] []

variable [Facts₀]

def gather_S100000x960_S131072x1_S131072x960_1_0_n_n_0_1_1960 : GatherDims S100000x960 S131072x1 S131072x960 where
  offsetDims := [1]
  collapsedSliceDims := [0]
  operandBatchingDims := []
  startIndicesBatchingDims := []
  startIndexMap := [0]
  indexVectorDim := 1
  sliceSizes := ![1, 960]
  wf := gather_S100000x960_S131072x1_S131072x960_1_0_n_n_0_1_1960_wf
def gather_S50000x960_S131072x1_S131072x960_1_0_n_n_0_1_1960 : GatherDims S50000x960 S131072x1 S131072x960 where
  offsetDims := [1]
  collapsedSliceDims := [0]
  operandBatchingDims := []
  startIndicesBatchingDims := []
  startIndexMap := [0]
  indexVectorDim := 1
  sliceSizes := ![1, 960]
  wf := gather_S50000x960_S131072x1_S131072x960_1_0_n_n_0_1_1960_wf
def dot_S131072x960_S960x960_S131072x960_1_0_0_1_n_n : DotDims S131072x960 S960x960 S131072x960 where
  lhsContracting := [1]
  rhsContracting := [0]
  lhsNonContracting := [0]
  rhsNonContracting := [1]
  lhsBatch := []
  rhsBatch := []
  wf := dot_S131072x960_S960x960_S131072x960_1_0_0_1_n_n_wf
def gather_S100000x32_S131072x1_S131072x32_1_0_n_n_0_1_132 : GatherDims S100000x32 S131072x1 S131072x32 where
  offsetDims := [1]
  collapsedSliceDims := [0]
  operandBatchingDims := []
  startIndicesBatchingDims := []
  startIndexMap := [0]
  indexVectorDim := 1
  sliceSizes := ![1, 32]
  wf := gather_S100000x32_S131072x1_S131072x32_1_0_n_n_0_1_132_wf
def gather_S50000x32_S131072x1_S131072x32_1_0_n_n_0_1_132 : GatherDims S50000x32 S131072x1 S131072x32 where
  offsetDims := [1]
  collapsedSliceDims := [0]
  operandBatchingDims := []
  startIndicesBatchingDims := []
  startIndexMap := [0]
  indexVectorDim := 1
  sliceSizes := ![1, 32]
  wf := gather_S50000x32_S131072x1_S131072x32_1_0_n_n_0_1_132_wf
def dot_S131072x1024_S1024x512_S131072x512_1_0_0_1_n_n : DotDims S131072x1024 S1024x512 S131072x512 where
  lhsContracting := [1]
  rhsContracting := [0]
  lhsNonContracting := [0]
  rhsNonContracting := [1]
  lhsBatch := []
  rhsBatch := []
  wf := dot_S131072x1024_S1024x512_S131072x512_1_0_0_1_n_n_wf
def dot_S131072x512_S512x256_S131072x256_1_0_0_1_n_n : DotDims S131072x512 S512x256 S131072x256 where
  lhsContracting := [1]
  rhsContracting := [0]
  lhsNonContracting := [0]
  rhsNonContracting := [1]
  lhsBatch := []
  rhsBatch := []
  wf := dot_S131072x512_S512x256_S131072x256_1_0_0_1_n_n_wf
def dot_S131072x256_S256x128_S131072x128_1_0_0_1_n_n : DotDims S131072x256 S256x128 S131072x128 where
  lhsContracting := [1]
  rhsContracting := [0]
  lhsNonContracting := [0]
  rhsNonContracting := [1]
  lhsBatch := []
  rhsBatch := []
  wf := dot_S131072x256_S256x128_S131072x128_1_0_0_1_n_n_wf
def dot_S131072x128_S128x1_S131072x1_1_0_0_1_n_n : DotDims S131072x128 S128x1 S131072x1 where
  lhsContracting := [1]
  rhsContracting := [0]
  lhsNonContracting := [0]
  rhsNonContracting := [1]
  lhsBatch := []
  rhsBatch := []
  wf := dot_S131072x128_S128x1_S131072x1_1_0_0_1_n_n_wf

class Facts : Prop extends Facts₀ where

variable [Facts]
-- ==== Proof.LibPlainDot.lean ====
/-
  The plain matrix product read at an entry.

  For the dimension numbers of an `M×K` by `K×N` product (`DotDims.plain M K N`: contract the left operand's
  axis 1 with the right operand's axis 0, no batch axis) the result's entry `(p, q)` is, over the extended reals,
  `∑ k : Fin K, lhs (p, k) * rhs (k, q)`: for a `tpu.matmul` into the zero accumulator and for the host's
  `dot_general` alike. The sum over the product's own one-axis contraction index is re-indexed through
  `ValueIdx.contrEquiv1` to a sum over `Fin K`, and the two operand indices are computed once, for every
  `M`, `K`, `N`.
-/
import Idealize.ShloMosaic.Lib.ValueIdx
import Idealize.ShloMosaic.PureOps.Ideal.Laws

noncomputable section

namespace Cert.Lib.PlainDot

open Idealize.ShloMosaic Idealize.ShloMosaic.ValueIdx

variable {M K N : Nat}

/-- The contraction index of the plain product is its one coordinate, a number below `K`. -/
abbrev kEquiv (M K N : Nat) : (DotDims.plain M K N).contr.Idx ≃ Fin K :=
  contrEquiv1 (DotDims.plain M K N) K rfl rfl

/-- The left operand's row coordinate is the result's row. -/
theorem lhs_axis0 (j : (⟨2, ![M, N]⟩ : Shape).Idx) (c : (DotDims.plain M K N).contr.Idx) :
    ((DotDims.plain M K N).lhsIdx j c 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.2 rfl)]
  rfl

/-- The left operand's column coordinate is the contraction position. -/
theorem lhs_axis1 (j : (⟨2, ![M, N]⟩ : Shape).Idx) (c : (DotDims.plain M K N).contr.Idx) :
    ((DotDims.plain M K N).lhsIdx j c 1).val = (c ⟨0, Nat.one_pos⟩).val :=
  (DotDims.plain M K N).lhsIdx_val_of_single rfl j c

/-- The right operand's row coordinate is the contraction position. -/
theorem rhs_axis0 (j : (⟨2, ![M, N]⟩ : Shape).Idx) (c : (DotDims.plain M K N).contr.Idx) :
    ((DotDims.plain M K N).rhsIdx j c 0).val = (c ⟨0, Nat.one_pos⟩).val :=
  (DotDims.plain M K N).rhsIdx_val_of_single rfl j c

/-- The right operand's column coordinate is the result's column. -/
theorem rhs_axis1 (j : (⟨2, ![M, N]⟩ : Shape).Idx) (c : (DotDims.plain M K N).contr.Idx) :
    ((DotDims.plain M K N).rhsIdx j c 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.2 rfl)]
  rfl

/-- At result entry `(p, q)` and contraction position `k` the left operand is read at `(p, k)`. -/
theorem lhsIdx_eq (p : Fin M) (q : Fin N) (k : Fin K) :
    (DotDims.plain M K N).lhsIdx (ix2 p q) ((kEquiv M K N).symm k) = ix2 p k := by
  have hk := contrEquiv1_symm_val (DotDims.plain M K N) K rfl rfl k
  exact funext fun a => Fin.ext (by
    match a with
    | ⟨0, _⟩ => exact lhs_axis0 _ _
    | ⟨1, _⟩ => exact (lhs_axis1 _ _).trans hk)

/-- At result entry `(p, q)` and contraction position `k` the right operand is read at `(k, q)`. -/
theorem rhsIdx_eq (p : Fin M) (q : Fin N) (k : Fin K) :
    (DotDims.plain M K N).rhsIdx (ix2 p q) ((kEquiv M K N).symm k) = ix2 k q := by
  have hk := contrEquiv1_symm_val (DotDims.plain M K N) K rfl rfl k
  exact funext fun a => Fin.ext (by
    match a with
    | ⟨0, _⟩ => exact (rhs_axis0 _ _).trans hk
    | ⟨1, _⟩ => exact rhs_axis1 _ _)

/-- The sum over the product's contraction index, as a sum over `Fin K` of the operands' entries. -/
theorem sum_contr {φ₁ φ₂ : FTy} (lhs : FVec Ideal ⟨2, ![M, K]⟩ φ₁) (rhs : FVec Ideal ⟨2, ![K, N]⟩ φ₂) (p : Fin M) (q : Fin N) :
    (∑ c : (DotDims.plain M K N).contr.Idx,
        lhs ((DotDims.plain M K N).lhsIdx (ix2 p q) c) * rhs ((DotDims.plain M K N).rhsIdx (ix2 p q) c) : EReal)
      = ∑ k : Fin K, lhs (ix2 p k) * rhs (ix2 k q) := by
  rw [← Equiv.sum_comp (kEquiv M K N).symm]
  refine Finset.sum_congr rfl fun k _ => ?_
  rw [lhsIdx_eq, rhsIdx_eq]

/-- A `tpu.matmul` with the plain dimension numbers into the zero accumulator, at entry `(p, q)`. -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact sum_contr lhs rhs p q

/-- The host's `dot_general` with the plain dimension numbers, at entry `(p, q)`. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact sum_contr lhs rhs p q

end Cert.Lib.PlainDot

end
-- ==== Proof.Spec.lean ====
/-
  What both programs compute, one batch row at a time, over the extended reals.

  For batch row `b` let `uc`, `ic` (960 numbers each) and `us`, `is` (32 each) be row `b` of the four gathered
  embedding arrays. With the transposed weight matrices `WtT` … `WrT` (`[in, out]`) and the biases as rows:
    tu = uc · WtT + bt,   ti = ic · WtT + bt,   x₀ = us ‖ is ‖ (tu ⊙ ti)      (1024 numbers)
    x₁ = tanh (x₀ · W1T + b1),   x₂ = tanh (x₁ · W2T + b2),   x₃ = tanh (x₂ · W3T + b3)
    score = x₃ · WrT + br + 3.5
  Every row of the result depends on the same row of the gathered arrays only, so a block of rows of the result is the
  same function of the same block of rows of the inputs.
-/
import Idealize.ShloMosaic.Lib.ValueIdx
import Idealize.ShloMosaic.PureOps.Ideal

noncomputable section

namespace Cert.Spec

open Idealize.ShloMosaic Idealize.ShloMosaic.ValueIdx

/-- One row through a dense layer: entry `j` is `∑ k, x k · w (k, j) + b j`. -/
def dense {K N : Nat} (x : Fin K → EReal) (w : (⟨2, ![K, N]⟩ : Shape).Idx → EReal) (b : Fin N → EReal) (j : Fin N) : EReal :=
  (∑ k : Fin K, x k * w (ix2 k j)) + b j

/-- Three rows laid end to end: 32 + 32 + 960 = 1024 entries. -/
def join3 (a b : Fin 32 → EReal) (c : Fin 960 → EReal) (q : Fin 1024) : EReal :=
  if h : q.val < 32 then a ⟨q.val, h⟩
  else if h2 : q.val < 64 then b ⟨q.val - 32, by omega⟩
  else c ⟨q.val - 64, by omega⟩

/-- The interaction features: the two transformed embeddings multiplied entry by entry. -/
def inter (uc ic : Fin 960 → EReal) (WtT : (⟨2, ![960, 960]⟩ : Shape).Idx → EReal) (bt : Fin 960 → EReal) (j : Fin 960) : EReal :=
  dense uc WtT bt j * dense ic WtT bt j

/-- A dense layer followed by `tanh`. -/
def tanhLayer {K N : Nat} (x : Fin K → EReal) (w : (⟨2, ![K, N]⟩ : Shape).Idx → EReal) (b : Fin N → EReal) (j : Fin N) : EReal :=
  Ideal.tanh (dense x w b j)

/-- The score of one batch row. -/
def score (uc ic : Fin 960 → EReal) (us is : Fin 32 → EReal)
    (WtT : (⟨2, ![960, 960]⟩ : Shape).Idx → EReal) (bt : Fin 960 → EReal)
    (W1T : (⟨2, ![1024, 512]⟩ : Shape).Idx → EReal) (b1 : Fin 512 → EReal)
    (W2T : (⟨2, ![512, 256]⟩ : Shape).Idx → EReal) (b2 : Fin 256 → EReal)
    (W3T : (⟨2, ![256, 128]⟩ : Shape).Idx → EReal) (b3 : Fin 128 → EReal)
    (WrT : (⟨2, ![128, 1]⟩ : Shape).Idx → EReal) (br : Fin 1 → EReal) : EReal :=
  dense (tanhLayer (tanhLayer (tanhLayer (join3 us is (inter uc ic WtT bt)) W1T b1) W2T b2) W3T b3) WrT br 0
    + Ideal.ofBits .f32 0x40600000#32

/-- The whole result: entry `(b, 0)` is the score of row `b` of the gathered arrays. -/
def scores (UC IC : (⟨2, ![131072, 960]⟩ : Shape).Idx → EReal) (US IS : (⟨2, ![131072, 32]⟩ : Shape).Idx → EReal)
    (WtT : (⟨2, ![960, 960]⟩ : Shape).Idx → EReal) (bt : Fin 960 → EReal)
    (W1T : (⟨2, ![1024, 512]⟩ : Shape).Idx → EReal) (b1 : Fin 512 → EReal)
    (W2T : (⟨2, ![512, 256]⟩ : Shape).Idx → EReal) (b2 : Fin 256 → EReal)
    (W3T : (⟨2, ![256, 128]⟩ : Shape).Idx → EReal) (b3 : Fin 128 → EReal)
    (WrT : (⟨2, ![128, 1]⟩ : Shape).Idx → EReal) (br : Fin 1 → EReal) :
    (⟨2, ![131072, 1]⟩ : Shape).Idx → EReal := fun i =>
  score (fun k => UC (ix2 (⟨(i 0).val, (i 0).isLt⟩ : Fin 131072) k)) (fun k => IC (ix2 (⟨(i 0).val, (i 0).isLt⟩ : Fin 131072) k))
    (fun k => US (ix2 (⟨(i 0).val, (i 0).isLt⟩ : Fin 131072) k)) (fun k => IS (ix2 (⟨(i 0).val, (i 0).isLt⟩ : Fin 131072) k))
    WtT bt W1T b1 W2T b2 W3T b3 WrT br

end Cert.Spec

end
-- ==== Proof.Layers.lean ====
/-
  One layer of either program, read at an entry, for any number of rows `M`.

  The kernel computes a dense layer on a block of rows as a `tpu.matmul` into the zero accumulator plus the bias
  row broadcast down the block; the reference computes it on all rows as a `dot_general` plus the bias vector
  broadcast twice (`[N] → [1, N] → [M, N]`). At entry `(p, j)` both are `Spec.dense` of row `p`: the same sum over
  `Fin K`. The concatenation of a `[M, 32]`, a `[M, 32]` and a `[M, 960]` array along the feature axis reads, at
  `(p, q)`, `Spec.join3` of the three rows `p`.
-/
import Idealize.ShloMosaic.Lib.Pipeline.Value
import Idealize.ShloMosaic.Lib.ValueLayout
import Idealize.ShloMosaic.PureOps.Ideal.Laws
import proofs.«413763_j3805341024787_1_alg».proof.Proof.LibPlainDot
import proofs.«413763_j3805341024787_1_alg».proof.Proof.Spec

noncomputable section

namespace Cert.Layers

open Idealize.ShloMosaic Idealize.ShloMosaic.ValueIdx Cert.Lib

variable {M K N : Nat}

/-- The kernel's dense layer on a block: product into the zero accumulator, plus the bias row. -/
theorem dense_matmul {φ₁ φ₂ : FTy}
    (x : FVec Ideal ⟨2, ![M, K]⟩ φ₁) (w : FVec Ideal ⟨2, ![K, N]⟩ φ₂) (b : FVec Ideal ⟨2, ![1, N]⟩ .f32)
    (hb : (⟨2, ![1, N]⟩ : Shape).Broadcasts ⟨2, ![M, N]⟩) (p : Fin M) (j : Fin N) :
    addf (matmul (DotDims.plain M K N) none x w (constant ⟨2, ![M, N]⟩ .f32 0x00000000#32)) (broadcastTo ⟨2, ![M, N]⟩ b hb) (ix2 p j)
      = Spec.dense (fun k => x (ix2 p k)) w (fun q => b (ix2 (0 : Fin 1) q)) j := by
  show FloatOps.matmul (DotDims.plain M K N) none x w (constant ⟨2, ![M, N]⟩ .f32 0x00000000#32) (ix2 p j)
      + broadcastTo ⟨2, ![M, N]⟩ b hb (ix2 p j) = _
  rw [PlainDot.matmul_zero_apply, broadcastTo_1b_ab_apply]
  rfl

/-- The bias vector broadcast to a row and then down the rows reads, at `(p, j)`, the vector at `j`. -/
theorem bias_bcast {α : Type} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (j : Fin N) :
    broadcastInDim ⟨2, ![M, N]⟩ ![0, 1] h2 (broadcastInDim ⟨2, ![1, N]⟩ ![1] h1 b) (ix2 p j) = b (ix1 j) := by
  have hj := j.isLt
  rw [broadcastInDim_apply ![0, 1] h2 _ (ix2 p j) (ix2 (0 : Fin 1) j) (fun a => match a with
    | ⟨0, _⟩ => by show (0 : Nat) = if (1 : Nat) = 1 then 0 else p.val; rw [if_pos rfl]
    | ⟨1, _⟩ => by show j.val = if N = 1 then 0 else j.val; split <;> omega)]
  exact broadcastInDim_apply ![1] h1 b (ix2 (0 : Fin 1) j) (ix1 j) (fun a => match a with
    | ⟨0, _⟩ => by show j.val = if N = 1 then 0 else j.val; split <;> omega)

/-- The reference's dense layer on all rows: the host's product plus the bias vector broadcast twice. -/
theorem dense_dotGeneral {φ₁ φ₂ : FTy}
    (x : FVec Ideal ⟨2, ![M, K]⟩ φ₁) (w : FVec Ideal ⟨2, ![K, N]⟩ φ₂) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (j : Fin N) :
    addf (Host.dotGeneral (DotDims.plain M K N) none x w) (broadcastInDim ⟨2, ![M, N]⟩ ![0, 1] h2 (broadcastInDim ⟨2, ![1, N]⟩ ![1] h1 b)) (ix2 p j)
      = Spec.dense (fun k => x (ix2 p k)) w (fun q => b (ix1 q)) j := by
  show FloatOps.dotGeneral (DotDims.plain M K N) none .single x w (ix2 p j)
      + broadcastInDim ⟨2, ![M, N]⟩ ![0, 1] h2 (broadcastInDim ⟨2, ![1, N]⟩ ![1] h1 b) (ix2 p j) = _
  rw [PlainDot.dotGeneral_apply, bias_bcast]
  rfl

/-- Three arrays joined along the feature axis, read at `(p, q)`: the piece that holds column `q`, at row `p`. -/
theorem join3_concat {α : Type} (a b : (⟨2, ![M, 32]⟩ : Shape).Idx → α) (c : (⟨2, ![M, 960]⟩ : Shape).Idx → α)
    (h : Shape.Concatenates [(⟨2, ![M, 32]⟩ : Shape), ⟨2, ![M, 32]⟩, ⟨2, ![M, 960]⟩] ⟨2, ![M, 1024]⟩ 1)
    (p : Fin M) (q : Fin 1024) :
    concatenate ⟨2, ![M, 1024]⟩ 1 [⟨⟨2, ![M, 32]⟩, a⟩, ⟨⟨2, ![M, 32]⟩, b⟩, ⟨⟨2, ![M, 960]⟩, c⟩] h (ix2 p q)
      = (if h1 : q.val < 32 then a (ix2 p ⟨q.val, h1⟩)
         else if h2 : q.val < 64 then b (ix2 p ⟨q.val - 32, by omega⟩)
         else c (ix2 p ⟨q.val - 64, by omega⟩)) := by
  have hq := q.isLt
  by_cases h1 : q.val < 32
  · rw [dif_pos h1]
    exact concatenate_apply_piece (t := ⟨2, ![M, 1024]⟩) 1 [⟨⟨2, ![M, 32]⟩, a⟩, ⟨⟨2, ![M, 32]⟩, b⟩, ⟨⟨2, ![M, 960]⟩, c⟩] h (ix2 p q) 0 (Nat.zero_lt_succ 2) ⟨2, ![M, 32]⟩ a rfl rfl 0 rfl (ix2 p ⟨q.val, h1⟩)
      (fun b hb => match b with
        | ⟨0, _⟩ => rfl
        | ⟨1, _⟩ => absurd rfl hb)
      (by show 0 + q.val = q.val; omega)
  · rw [dif_neg h1]
    by_cases h2 : q.val < 64
    · rw [dif_pos h2]
      exact concatenate_apply_piece (t := ⟨2, ![M, 1024]⟩) 1 [⟨⟨2, ![M, 32]⟩, a⟩, ⟨⟨2, ![M, 32]⟩, b⟩, ⟨⟨2, ![M, 960]⟩, c⟩] h (ix2 p q) 1 (Nat.succ_lt_succ (Nat.zero_lt_succ 1)) ⟨2, ![M, 32]⟩ b rfl rfl 32 rfl (ix2 p ⟨q.val - 32, by omega⟩)
        (fun b hb => match b with
          | ⟨0, _⟩ => rfl
          | ⟨1, _⟩ => absurd rfl hb)
        (by show 32 + (q.val - 32) = q.val; omega)
    · rw [dif_neg h2]
      exact concatenate_apply_piece (t := ⟨2, ![M, 1024]⟩) 1 [⟨⟨2, ![M, 32]⟩, a⟩, ⟨⟨2, ![M, 32]⟩, b⟩, ⟨⟨2, ![M, 960]⟩, c⟩] h (ix2 p q) 2 (Nat.lt_succ_self 2) ⟨2, ![M, 960]⟩ c rfl rfl 64 rfl (ix2 p ⟨q.val - 64, by omega⟩)
        (fun b hb => match b with
          | ⟨0, _⟩ => rfl
          | ⟨1, _⟩ => absurd rfl hb)
        (by show 64 + (q.val - 64) = q.val; omega)

/-- The same, stated with `Spec.join3` of the three rows. -/
theorem join3_concat' (a b : (⟨2, ![M, 32]⟩ : Shape).Idx → EReal) (c : (⟨2, ![M, 960]⟩ : Shape).Idx → EReal)
    (h : Shape.Concatenates [(⟨2, ![M, 32]⟩ : Shape), ⟨2, ![M, 32]⟩, ⟨2, ![M, 960]⟩] ⟨2, ![M, 1024]⟩ 1)
    (p : Fin M) (q : Fin 1024) :
    concatenate ⟨2, ![M, 1024]⟩ 1 [⟨⟨2, ![M, 32]⟩, a⟩, ⟨⟨2, ![M, 32]⟩, b⟩, ⟨⟨2, ![M, 960]⟩, c⟩] h (ix2 p q)
      = Spec.join3 (fun k => a (ix2 p k)) (fun k => b (ix2 p k)) (fun k => c (ix2 p k)) q :=
  (join3_concat a b c h p q).trans rfl

/-- The kernel's dense layer followed by `tanh` and the cast to bf16, on a block. -/
theorem tanh_matmul {φ₁ φ₂ : FTy} (x : FVec Ideal ⟨2, ![M, K]⟩ φ₁) (w : FVec Ideal ⟨2, ![K, N]⟩ φ₂) (b : FVec Ideal ⟨2, ![1, N]⟩ .f32)
    (hb : (⟨2, ![1, N]⟩ : Shape).Broadcasts ⟨2, ![M, N]⟩) (hbits : FTy.bf16.bits < FTy.f32.bits) (p : Fin M) (j : Fin N) :
    truncf .bf16 (tanh (addf (matmul (DotDims.plain M K N) none x w (constant ⟨2, ![M, N]⟩ .f32 0x00000000#32))
        (broadcastTo ⟨2, ![M, N]⟩ b hb))) hbits (ix2 p j)
      = Spec.tanhLayer (fun k => x (ix2 p k)) w (fun q => b (ix2 (0 : Fin 1) q)) j := by
  show Ideal.tanh (addf (matmul (DotDims.plain M K N) none x w (constant ⟨2, ![M, N]⟩ .f32 0x00000000#32))
        (broadcastTo ⟨2, ![M, N]⟩ b hb) (ix2 p j)) = _
  rw [dense_matmul]
  rfl

/-- The reference's dense layer followed by `tanh`, on all rows. -/
theorem tanh_dotGeneral {φ₁ φ₂ : FTy} (x : FVec Ideal ⟨2, ![M, K]⟩ φ₁) (w : FVec Ideal ⟨2, ![K, N]⟩ φ₂) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (j : Fin N) :
    Host.tanh (addf (Host.dotGeneral (DotDims.plain M K N) none x w)
        (broadcastInDim ⟨2, ![M, N]⟩ ![0, 1] h2 (broadcastInDim ⟨2, ![1, N]⟩ ![1] h1 b))) (ix2 p j)
      = Spec.tanhLayer (fun k => x (ix2 p k)) w (fun q => b (ix1 q)) j := by
  show Ideal.tanh (addf (Host.dotGeneral (DotDims.plain M K N) none x w)
        (broadcastInDim ⟨2, ![M, N]⟩ ![0, 1] h2 (broadcastInDim ⟨2, ![1, N]⟩ ![1] h1 b)) (ix2 p j)) = _
  rw [dense_dotGeneral]
  rfl

end Cert.Layers

end
-- ==== Proof.KernelBody.lean ====
/-
  What the kernel's body leaves in its output block, at row `p`: the score (`Spec.score`) of row `p` of the four
  embedding blocks, with the weight blocks as they are and the bias blocks' one row. The body is two payloads: the first
  computes the interaction features, joins the three feature groups and applies the first `tanh` layer; the second
  applies the other two `tanh` layers and the readout, and adds 3.5.
-/
import proofs.«413763_j3805341024787_1_alg».proof.Proof.Gen.KernelIdeal.Frame
import proofs.«413763_j3805341024787_1_alg».proof.Proof.Layers

noncomputable section

namespace Cert.KernelIdeal.Body

open Cert.KernelIdeal Cert.KernelIdeal.Gen Idealize.ShloMosaic Idealize.ShloMosaic.ValueIdx

/-! The five products' dimension numbers are the plain `M×K · K×N` ones. -/
theorem d960 : dot_S1024x960_S960x960_S1024x960_1_0_0_1_n_n = DotDims.plain 1024 960 960 := rfl
theorem d1024 : dot_S1024x1024_S1024x512_S1024x512_1_0_0_1_n_n = DotDims.plain 1024 1024 512 := rfl
theorem d512 : dot_S1024x512_S512x256_S1024x256_1_0_0_1_n_n = DotDims.plain 1024 512 256 := rfl
theorem d256 : dot_S1024x256_S256x128_S1024x128_1_0_0_1_n_n = DotDims.plain 1024 256 128 := rfl
theorem d128 : dot_S1024x128_S128x1_S1024x1_1_0_0_1_n_n = DotDims.plain 1024 128 1 := rfl

/-- The first payload at `(p, j)`: the first `tanh` layer of row `p`'s joined features. -/
theorem pay2_apply (v0 v9 : Vec Ideal S1024x960 .bf16) (v2 : Vec Ideal S960x960 .bf16) (v5 : Vec Ideal S1x960 .f32)
    (v20 v22 : Vec Ideal S1024x32 .bf16) (v25 : Vec Ideal S1024x512 .bf16) (v28 : Vec Ideal S1x512 .f32) (p : Fin 1024) (j : Fin 512) :
    k0_pay2 (F := Ideal) v0 v2 v5 v9 v2 v5 v20 v22 v25 v28 (ix2 p j)
      = Spec.tanhLayer (Spec.join3 (fun k => v20 (ix2 p k)) (fun k => v22 (ix2 p k))
          (Spec.inter (fun k => v0 (ix2 p k)) (fun k => v9 (ix2 p k)) v2 (fun q => v5 (ix2 (0 : Fin 1) q))))
          v25 (fun q => v28 (ix2 (0 : Fin 1) q)) j := by
  unfold k0_pay2
  rw [d960, d1024]
  rw [Layers.tanh_matmul]
  try simp only [shapeCast_self]
  refine congrArg (fun f => Spec.tanhLayer f v25 (fun q => v28 (ix2 (0 : Fin 1) q)) j) (funext fun k => ?_)
  rw [Layers.join3_concat']
  try simp only [shapeCast_self]
  refine congrArg (fun f => Spec.join3 (fun k => v20 (ix2 p k)) (fun k => v22 (ix2 p k)) f k) (funext fun q => ?_)
  rw [ValueIdx.truncf_apply, ValueIdx.mulf_apply]
  rw [Layers.dense_matmul, Layers.dense_matmul]
  try simp only [shapeCast_self]
  rfl

/-- The second payload at `(p, 0)`: two more `tanh` layers, the readout, and 3.5. -/
theorem pay1_apply (v33 : FVec Ideal S1024x512 .bf16) (v34 : Vec Ideal S512x256 .bf16) (v37 : Vec Ideal S1x256 .f32)
    (v43 : Vec Ideal S256x128 .bf16) (v46 : Vec Ideal S1x128 .f32) (v52 : Vec Ideal S128x1 .bf16) (v55 : Vec Ideal S1x1 .f32) (p : Fin 1024) :
    k0_pay1 (F := Ideal) v33 v34 v37 v43 v46 v52 v55 (ix2 p (0 : Fin 1))
      = Spec.dense (Spec.tanhLayer (Spec.tanhLayer (fun k => v33 (ix2 p k)) v34 (fun q => v37 (ix2 (0 : Fin 1) q)))
          v43 (fun q => v46 (ix2 (0 : Fin 1) q))) v52 (fun q => v55 (ix2 (0 : Fin 1) q)) 0
        + Ideal.ofBits .f32 0x40600000#32 := by
  unfold k0_pay1
  rw [d512, d256, d128]
  rw [ValueIdx.addf_apply, Layers.dense_matmul]
  try simp only [shapeCast_self]
  refine congrArg₂ (· + ·) (congrArg (fun f => Spec.dense f v52 (fun q => v55 (ix2 (0 : Fin 1) q)) 0) (funext fun k => ?_)) rfl
  rw [Layers.tanh_matmul]
  try simp only [shapeCast_self]
  refine congrArg (fun f => Spec.tanhLayer f v43 (fun q => v46 (ix2 (0 : Fin 1) q)) k) (funext fun k' => ?_)
  rw [Layers.tanh_matmul]
  try simp only [shapeCast_self]

end Cert.KernelIdeal.Body

end
-- ==== Proof.KernelBlocks.lean ====
/-
  Blocks of the kernel's one region. The kernel's result array after the run, as one function of the arrays its region finds: row `b` of the result is the
  score (`Spec.score`) of row `b` of the four gathered embedding arrays. Grid point `t` works on rows
  `1024 t … 1024 t + 1023`: its four embedding blocks are those rows, its weight and bias blocks the whole arrays, and it
  writes those rows of the result; the 128 blocks tile the result.
-/
import proofs.«413763_j3805341024787_1_alg».proof.Proof.Gen.KernelIdeal.Value
import proofs.«413763_j3805341024787_1_alg».proof.Proof.KernelBody

set_option maxRecDepth 100000

noncomputable section

namespace Cert.KernelIdeal.Blocks

open Cert.KernelIdeal Cert.KernelIdeal.Gen Cert.KernelIdeal.Value Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- What the body leaves at row `p` of its output block: the score of row `p` of its embedding blocks. -/
theorem out_row (x0 x1 : Vec Ideal S1024x960 .bf16) (x2 x3 : Vec Ideal S1024x32 .bf16) (x4 : Vec Ideal S960x960 .bf16) (x5 : Vec Ideal S1x960 .f32)
    (x6 : Vec Ideal S1024x512 .bf16) (x7 : Vec Ideal S1x512 .f32) (x8 : Vec Ideal S512x256 .bf16) (x9 : Vec Ideal S1x256 .f32)
    (x10 : Vec Ideal S256x128 .bf16) (x11 : Vec Ideal S1x128 .f32) (x12 : Vec Ideal S128x1 .bf16) (x13 : Vec Ideal S1x1 .f32) (p : Fin 1024) :
    out0_14 (F := Ideal) x0 x1 x2 x3 x4 x5 x6 x7 x8 x9 x10 x11 x12 x13 (ix2 p (0 : Fin 1))
      = Spec.score (fun k => x0 (ix2 p k)) (fun k => x1 (ix2 p k)) (fun k => x2 (ix2 p k)) (fun k => x3 (ix2 p k))
          x4 (fun q => x5 (ix2 (0 : Fin 1) q)) x6 (fun q => x7 (ix2 (0 : Fin 1) q)) x8 (fun q => x9 (ix2 (0 : Fin 1) q))
          x10 (fun q => x11 (ix2 (0 : Fin 1) q)) x12 (fun q => x13 (ix2 (0 : Fin 1) q)) := by
  unfold out0_14
  rw [View.canon_unit_zero hz]
  simp only [View.ld_unit_zero (S := S1024x960) hz, View.ld_unit_zero (S := S960x960) hz, View.ld_unit_zero (S := S1x960) hz, View.ld_unit_zero (S := S1024x32) hz, View.ld_unit_zero (S := S1024x512) hz, View.ld_unit_zero (S := S1x512) hz, View.ld_unit_zero (S := S512x256) hz, View.ld_unit_zero (S := S1x256) hz, View.ld_unit_zero (S := S256x128) hz, View.ld_unit_zero (S := S1x128) hz, View.ld_unit_zero (S := S128x1) hz, View.ld_unit_zero (S := S1x1) hz]
  rw [Body.pay1_apply]
  unfold Spec.score
  exact congrArg₂ (· + ·) (congrArg (fun f => Spec.dense (Spec.tanhLayer (Spec.tanhLayer f x8 (fun q => x9 (ix2 (0 : Fin 1) q))) x10
    (fun q => x11 (ix2 (0 : Fin 1) q))) x12 (fun q => x13 (ix2 (0 : Fin 1) q)) 0) (funext fun j => Body.pay2_apply x0 x1 x4 x5 x2 x3 x6 x7 p j)) rfl

/-- The printed index maps, decided over the 128 grid points: the embedding windows and the output move down the rows
    with the point; every weight and bias window stays on its one block. -/
theorem idx_facts : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_3.index t (0 : Fin 2) = t.val
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 2) = 0
    ∧ win0_10.index t (1 : Fin 2) = 0
    ∧ win0_11.index t (0 : Fin 2) = 0
    ∧ win0_11.index t (1 : Fin 2) = 0
    ∧ win0_12.index t (0 : Fin 2) = 0
    ∧ win0_12.index t (1 : Fin 2) = 0
    ∧ win0_13.index t (0 : Fin 2) = 0
    ∧ win0_13.index t (1 : Fin 2) = 0
    ∧ win0_14.index t (0 : Fin 2) = t.val
    ∧ win0_14.index t (1 : Fin 2) = 0 :=
  (by decide +kernel : ∀ t : Fin grid0.N, _)

theorem t_lt (t : Fin cfg0.N) : t.val < 128 := t.isLt

/-- Row `p` of the output block at point `t` is row `1024 t + p` of the result array. -/
theorem emb14 (t : Fin cfg0.N) (p : Fin 1024) :
    ((cfg0.win 14).blk t).view.emb (ix2 p (0 : Fin 1))
      = (ix2 (⟨t.val * 1024 + p.val, by have := t_lt t; have := p.isLt; omega⟩ : Fin 131072) (0 : Fin 1) : S131072x1.Idx) := by
  refine funext fun a => Fin.ext ?_
  match a with
  | ⟨0, _⟩ => show win0_14.index t (0 : Fin 2) * 1024 + 1 * p.val = t.val * 1024 + p.val; rw [(idx_facts t).2.2.2.2.2.2.2.2.2.2.2.2.2.2.2.2.2.2.2.2.2.2.2.2.2.2.2.2.1]; omega
  | ⟨1, _⟩ => show win0_14.index t (1 : Fin 2) * 1 + 1 * 0 = 0; rw [(idx_facts t).2.2.2.2.2.2.2.2.2.2.2.2.2.2.2.2.2.2.2.2.2.2.2.2.2.2.2.2.2]

/-- An index of the result array is in point `t`'s block iff each coordinate is in the block's range. -/
theorem mem_blk14 (t : Fin cfg0.N) (i : S131072x1.Idx) :
    i ∈ ((cfg0.win 14).blk t).view.set ↔ ∀ a : Fin 2, win0_14.index t a * S1024x1.size a ≤ (i a).val ∧ (i a).val < win0_14.index t a * S1024x1.size a + S1024x1.size a := by
  show i ∈ ((View.whole main_v23).slice (win0_14.rect t)).set ↔ _
  rw [View.set_slice_whole, Rect.mem_set_unit]
  exact Iff.rfl

/-- The 128 blocks cover the result array: row `r` is in block `r / 1024`. -/
theorem cover (i : S131072x1.Idx) : ∃ t : Fin cfg0.N, (cfg0.win 14).flush t = true ∧ i ∈ ((cfg0.win 14).blk t).view.set := by
  have hi0 : (i 0).val < 131072 := (i 0).isLt
  have hi1 : (i 1).val < 1 := (i 1).isLt
  refine ⟨⟨(i 0).val / 1024, by show (i 0).val / 1024 < 128; omega⟩, flush0_14 _, ?_⟩
  rw [mem_blk14]
  intro a
  match a with
  | ⟨0, _⟩ =>
    show win0_14.index ⟨(i 0).val / 1024, _⟩ (0 : Fin 2) * 1024 ≤ (i 0).val ∧ (i 0).val < win0_14.index ⟨(i 0).val / 1024, _⟩ (0 : Fin 2) * 1024 + 1024
    rw [(idx_facts ⟨(i 0).val / 1024, _⟩).2.2.2.2.2.2.2.2.2.2.2.2.2.2.2.2.2.2.2.2.2.2.2.2.2.2.2.2.1]
    show (i 0).val / 1024 * 1024 ≤ (i 0).val ∧ (i 0).val < (i 0).val / 1024 * 1024 + 1024
    omega
  | ⟨1, _⟩ =>
    show win0_14.index ⟨(i 0).val / 1024, _⟩ (1 : Fin 2) * 1 ≤ (i 1).val ∧ (i 1).val < win0_14.index ⟨(i 0).val / 1024, _⟩ (1 : Fin 2) * 1 + 1
    rw [(idx_facts ⟨(i 0).val / 1024, _⟩).2.2.2.2.2.2.2.2.2.2.2.2.2.2.2.2.2.2.2.2.2.2.2.2.2.2.2.2.2]
    omega

end Cert.KernelIdeal.Blocks

end
-- ==== Proof.KernelBlkA.lean ====
/-
  Blocks of the kernel's one region, the four embedding windows: a window's block at grid point `t`, read at an entry, is its array at
  the entry the window's index map sends it to.
-/
import proofs.«413763_j3805341024787_1_alg».proof.Proof.KernelBlocks

set_option maxRecDepth 100000

noncomputable section

namespace Cert.KernelIdeal.Blocks

open Cert.KernelIdeal Cert.KernelIdeal.Gen Cert.KernelIdeal.Value Idealize.ShloMosaic Idealize.ShloMosaic.ValueIdx Idealize.ShloMosaic.TcCoe Idealize.SL.Sem
open Idealize.ShloMosaic.Pipeline (Dat)

variable (m : (ℓ : Loc nD τ sig) → Buf (Elt Ideal) ℓ)

/-- Row `p` of window 0's block at point `t` is row `1024 t + p` of its array. -/
theorem blk0 (c : Dev nD) (t : Fin cfg0.N) (p : Fin 1024) (k : Fin 960) :
    iblk m c 0 t (ix2 p k) = V m c main_v1 (ix2 (⟨t.val * 1024 + p.val, by have := t_lt t; have := p.isLt; omega⟩ : Fin 131072) k) := by
  show V m c main_v1 (((cfg0.win 0).blk t).view.emb (ix2 p k)) = _
  refine congrArg _ (funext fun a => Fin.ext ?_)
  match a with
  | ⟨0, _⟩ => show win0_0.index t (0 : Fin 2) * 1024 + 1 * p.val = t.val * 1024 + p.val; rw [(idx_facts t).1]; omega
  | ⟨1, _⟩ => show win0_0.index t (1 : Fin 2) * 960 + 1 * k.val = k.val; rw [(idx_facts t).2.1]; omega

/-- Row `p` of window 1's block at point `t` is row `1024 t + p` of its array. -/
theorem blk1 (c : Dev nD) (t : Fin cfg0.N) (p : Fin 1024) (k : Fin 960) :
    iblk m c 1 t (ix2 p k) = V m c main_v3 (ix2 (⟨t.val * 1024 + p.val, by have := t_lt t; have := p.isLt; omega⟩ : Fin 131072) k) := by
  show V m c main_v3 (((cfg0.win 1).blk t).view.emb (ix2 p k)) = _
  refine congrArg _ (funext fun a => Fin.ext ?_)
  match a with
  | ⟨0, _⟩ => show win0_1.index t (0 : Fin 2) * 1024 + 1 * p.val = t.val * 1024 + p.val; rw [(idx_facts t).2.2.1]; omega
  | ⟨1, _⟩ => show win0_1.index t (1 : Fin 2) * 960 + 1 * k.val = k.val; rw [(idx_facts t).2.2.2.1]; omega

/-- Row `p` of window 2's block at point `t` is row `1024 t + p` of its array. -/
theorem blk2 (c : Dev nD) (t : Fin cfg0.N) (p : Fin 1024) (k : Fin 32) :
    iblk m c 2 t (ix2 p k) = V m c main_v5 (ix2 (⟨t.val * 1024 + p.val, by have := t_lt t; have := p.isLt; omega⟩ : Fin 131072) k) := by
  show V m c main_v5 (((cfg0.win 2).blk t).view.emb (ix2 p k)) = _
  refine congrArg _ (funext fun a => Fin.ext ?_)
  match a with
  | ⟨0, _⟩ => show win0_2.index t (0 : Fin 2) * 1024 + 1 * p.val = t.val * 1024 + p.val; rw [(idx_facts t).2.2.2.2.1]; omega
  | ⟨1, _⟩ => show win0_2.index t (1 : Fin 2) * 32 + 1 * k.val = k.val; rw [(idx_facts t).2.2.2.2.2.1]; omega

/-- Row `p` of window 3's block at point `t` is row `1024 t + p` of its array. -/
theorem blk3 (c : Dev nD) (t : Fin cfg0.N) (p : Fin 1024) (k : Fin 32) :
    iblk m c 3 t (ix2 p k) = V m c main_v7 (ix2 (⟨t.val * 1024 + p.val, by have := t_lt t; have := p.isLt; omega⟩ : Fin 131072) k) := by
  show V m c main_v7 (((cfg0.win 3).blk t).view.emb (ix2 p k)) = _
  refine congrArg _ (funext fun a => Fin.ext ?_)
  match a with
  | ⟨0, _⟩ => show win0_3.index t (0 : Fin 2) * 1024 + 1 * p.val = t.val * 1024 + p.val; rw [(idx_facts t).2.2.2.2.2.2.1]; omega
  | ⟨1, _⟩ => show win0_3.index t (1 : Fin 2) * 32 + 1 * k.val = k.val; rw [(idx_facts t).2.2.2.2.2.2.2.1]; omega

end Cert.KernelIdeal.Blocks

end
-- ==== Proof.KernelBlkB.lean ====
/-
  Blocks of the kernel's one region, windows 4 to 8 (weights and biases, each one whole array): a window's block at grid point `t`, read at an entry, is its array at
  the entry the window's index map sends it to.
-/
import proofs.«413763_j3805341024787_1_alg».proof.Proof.KernelBlocks

set_option maxRecDepth 100000

noncomputable section

namespace Cert.KernelIdeal.Blocks

open Cert.KernelIdeal Cert.KernelIdeal.Gen Cert.KernelIdeal.Value Idealize.ShloMosaic Idealize.ShloMosaic.ValueIdx Idealize.ShloMosaic.TcCoe Idealize.SL.Sem
open Idealize.ShloMosaic.Pipeline (Dat)

variable (m : (ℓ : Loc nD τ sig) → Buf (Elt Ideal) ℓ)

/-- Window 4's block at every point is its whole array. -/
theorem blk4 (c : Dev nD) (t : Fin cfg0.N) : @Eq (S960x960.Idx → EReal) (iblk m c 4 t) (V m c main_v9) := by
  funext y
  show V m c main_v9 (((cfg0.win 4).blk t).view.emb y) = V m c main_v9 y
  refine congrArg _ (funext fun a => Fin.ext ?_)
  match a with
  | ⟨0, _⟩ => show win0_4.index t (0 : Fin 2) * 960 + 1 * (y 0).val = (y 0).val; rw [(idx_facts t).2.2.2.2.2.2.2.2.1]; omega
  | ⟨1, _⟩ => show win0_4.index t (1 : Fin 2) * 960 + 1 * (y 1).val = (y 1).val; rw [(idx_facts t).2.2.2.2.2.2.2.2.2.1]; omega

/-- Window 5's block at every point is its whole array. -/
theorem blk5 (c : Dev nD) (t : Fin cfg0.N) : @Eq (S1x960.Idx → EReal) (iblk m c 5 t) (V m c main_v18) := by
  funext y
  show V m c main_v18 (((cfg0.win 5).blk t).view.emb y) = V m c main_v18 y
  refine congrArg _ (funext fun a => Fin.ext ?_)
  match a with
  | ⟨0, _⟩ => show win0_5.index t (0 : Fin 2) * 1 + 1 * (y 0).val = (y 0).val; rw [(idx_facts t).2.2.2.2.2.2.2.2.2.2.1]; omega
  | ⟨1, _⟩ => show win0_5.index t (1 : Fin 2) * 960 + 1 * (y 1).val = (y 1).val; rw [(idx_facts t).2.2.2.2.2.2.2.2.2.2.2.1]; omega

/-- Window 6's block at every point is its whole array. -/
theorem blk6 (c : Dev nD) (t : Fin cfg0.N) : @Eq (S1024x512.Idx → EReal) (iblk m c 6 t) (V m c main_v11) := by
  funext y
  show V m c main_v11 (((cfg0.win 6).blk t).view.emb y) = V m c main_v11 y
  refine congrArg _ (funext fun a => Fin.ext ?_)
  match a with
  | ⟨0, _⟩ => show win0_6.index t (0 : Fin 2) * 1024 + 1 * (y 0).val = (y 0).val; rw [(idx_facts t).2.2.2.2.2.2.2.2.2.2.2.2.1]; omega
  | ⟨1, _⟩ => show win0_6.index t (1 : Fin 2) * 512 + 1 * (y 1).val = (y 1).val; rw [(idx_facts t).2.2.2.2.2.2.2.2.2.2.2.2.2.1]; omega

/-- Window 7's block at every point is its whole array. -/
theorem blk7 (c : Dev nD) (t : Fin cfg0.N) : @Eq (S1x512.Idx → EReal) (iblk m c 7 t) (V m c main_v19) := by
  funext y
  show V m c main_v19 (((cfg0.win 7).blk t).view.emb y) = V m c main_v19 y
  refine congrArg _ (funext fun a => Fin.ext ?_)
  match a with
  | ⟨0, _⟩ => show win0_7.index t (0 : Fin 2) * 1 + 1 * (y 0).val = (y 0).val; rw [(idx_facts t).2.2.2.2.2.2.2.2.2.2.2.2.2.2.1]; omega
  | ⟨1, _⟩ => show win0_7.index t (1 : Fin 2) * 512 + 1 * (y 1).val = (y 1).val; rw [(idx_facts t).2.2.2.2.2.2.2.2.2.2.2.2.2.2.2.1]; omega

/-- Window 8's block at every point is its whole array. -/
theorem blk8 (c : Dev nD) (t : Fin cfg0.N) : @Eq (S512x256.Idx → EReal) (iblk m c 8 t) (V m c main_v13) := by
  funext y
  show V m c main_v13 (((cfg0.win 8).blk t).view.emb y) = V m c main_v13 y
  refine congrArg _ (funext fun a => Fin.ext ?_)
  match a with
  | ⟨0, _⟩ => show win0_8.index t (0 : Fin 2) * 512 + 1 * (y 0).val = (y 0).val; rw [(idx_facts t).2.2.2.2.2.2.2.2.2.2.2.2.2.2.2.2.1]; omega
  | ⟨1, _⟩ => show win0_8.index t (1 : Fin 2) * 256 + 1 * (y 1).val = (y 1).val; rw [(idx_facts t).2.2.2.2.2.2.2.2.2.2.2.2.2.2.2.2.2.1]; omega

end Cert.KernelIdeal.Blocks

end
-- ==== Proof.KernelBlkC.lean ====
/-
  Blocks of the kernel's one region, windows 9 to 13 (weights and biases, each one whole array): a window's block at grid point `t`, read at an entry, is its array at
  the entry the window's index map sends it to.
-/
import proofs.«413763_j3805341024787_1_alg».proof.Proof.KernelBlocks

set_option maxRecDepth 100000

noncomputable section

namespace Cert.KernelIdeal.Blocks

open Cert.KernelIdeal Cert.KernelIdeal.Gen Cert.KernelIdeal.Value Idealize.ShloMosaic Idealize.ShloMosaic.ValueIdx Idealize.ShloMosaic.TcCoe Idealize.SL.Sem
open Idealize.ShloMosaic.Pipeline (Dat)

variable (m : (ℓ : Loc nD τ sig) → Buf (Elt Ideal) ℓ)

/-- Window 9's block at every point is its whole array. -/
theorem blk9 (c : Dev nD) (t : Fin cfg0.N) : @Eq (S1x256.Idx → EReal) (iblk m c 9 t) (V m c main_v20) := by
  funext y
  show V m c main_v20 (((cfg0.win 9).blk t).view.emb y) = V m c main_v20 y
  refine congrArg _ (funext fun a => Fin.ext ?_)
  match a with
  | ⟨0, _⟩ => show win0_9.index t (0 : Fin 2) * 1 + 1 * (y 0).val = (y 0).val; rw [(idx_facts t).2.2.2.2.2.2.2.2.2.2.2.2.2.2.2.2.2.2.1]; omega
  | ⟨1, _⟩ => show win0_9.index t (1 : Fin 2) * 256 + 1 * (y 1).val = (y 1).val; rw [(idx_facts t).2.2.2.2.2.2.2.2.2.2.2.2.2.2.2.2.2.2.2.1]; omega

/-- Window 10's block at every point is its whole array. -/
theorem blk10 (c : Dev nD) (t : Fin cfg0.N) : @Eq (S256x128.Idx → EReal) (iblk m c 10 t) (V m c main_v15) := by
  funext y
  show V m c main_v15 (((cfg0.win 10).blk t).view.emb y) = V m c main_v15 y
  refine congrArg _ (funext fun a => Fin.ext ?_)
  match a with
  | ⟨0, _⟩ => show win0_10.index t (0 : Fin 2) * 256 + 1 * (y 0).val = (y 0).val; rw [(idx_facts t).2.2.2.2.2.2.2.2.2.2.2.2.2.2.2.2.2.2.2.2.1]; omega
  | ⟨1, _⟩ => show win0_10.index t (1 : Fin 2) * 128 + 1 * (y 1).val = (y 1).val; rw [(idx_facts t).2.2.2.2.2.2.2.2.2.2.2.2.2.2.2.2.2.2.2.2.2.1]; omega

/-- Window 11's block at every point is its whole array. -/
theorem blk11 (c : Dev nD) (t : Fin cfg0.N) : @Eq (S1x128.Idx → EReal) (iblk m c 11 t) (V m c main_v21) := by
  funext y
  show V m c main_v21 (((cfg0.win 11).blk t).view.emb y) = V m c main_v21 y
  refine congrArg _ (funext fun a => Fin.ext ?_)
  match a with
  | ⟨0, _⟩ => show win0_11.index t (0 : Fin 2) * 1 + 1 * (y 0).val = (y 0).val; rw [(idx_facts t).2.2.2.2.2.2.2.2.2.2.2.2.2.2.2.2.2.2.2.2.2.2.1]; omega
  | ⟨1, _⟩ => show win0_11.index t (1 : Fin 2) * 128 + 1 * (y 1).val = (y 1).val; rw [(idx_facts t).2.2.2.2.2.2.2.2.2.2.2.2.2.2.2.2.2.2.2.2.2.2.2.1]; omega

/-- Window 12's block at every point is its whole array. -/
theorem blk12 (c : Dev nD) (t : Fin cfg0.N) : @Eq (S128x1.Idx → EReal) (iblk m c 12 t) (V m c main_v17) := by
  funext y
  show V m c main_v17 (((cfg0.win 12).blk t).view.emb y) = V m c main_v17 y
  refine congrArg _ (funext fun a => Fin.ext ?_)
  match a with
  | ⟨0, _⟩ => show win0_12.index t (0 : Fin 2) * 128 + 1 * (y 0).val = (y 0).val; rw [(idx_facts t).2.2.2.2.2.2.2.2.2.2.2.2.2.2.2.2.2.2.2.2.2.2.2.2.1]; omega
  | ⟨1, _⟩ => show win0_12.index t (1 : Fin 2) * 1 + 1 * (y 1).val = (y 1).val; rw [(idx_facts t).2.2.2.2.2.2.2.2.2.2.2.2.2.2.2.2.2.2.2.2.2.2.2.2.2.1]; omega

/-- Window 13's block at every point is its whole array. -/
theorem blk13 (c : Dev nD) (t : Fin cfg0.N) : @Eq (S1x1.Idx → EReal) (iblk m c 13 t) (V m c main_v22) := by
  funext y
  show V m c main_v22 (((cfg0.win 13).blk t).view.emb y) = V m c main_v22 y
  refine congrArg _ (funext fun a => Fin.ext ?_)
  match a with
  | ⟨0, _⟩ => show win0_13.index t (0 : Fin 2) * 1 + 1 * (y 0).val = (y 0).val; rw [(idx_facts t).2.2.2.2.2.2.2.2.2.2.2.2.2.2.2.2.2.2.2.2.2.2.2.2.2.2.1]; omega
  | ⟨1, _⟩ => show win0_13.index t (1 : Fin 2) * 1 + 1 * (y 1).val = (y 1).val; rw [(idx_facts t).2.2.2.2.2.2.2.2.2.2.2.2.2.2.2.2.2.2.2.2.2.2.2.2.2.2.2.1]; omega

end Cert.KernelIdeal.Blocks

end
-- ==== Proof.KernelG.lean ====
/-
  The kernel's result array as one function of the fourteen arrays its region finds in its input windows:
  `Spec.scores` of the four gathered embedding arrays, the five transposed weight matrices and the five bias rows.
-/
import proofs.«413763_j3805341024787_1_alg».proof.Proof.Gen.KernelIdeal.Frame
import proofs.«413763_j3805341024787_1_alg».proof.Proof.Spec

set_option maxRecDepth 100000

noncomputable section

namespace Cert.KernelIdeal.RowValue

open Cert.KernelIdeal Cert.KernelIdeal.Gen Idealize.ShloMosaic Idealize.ShloMosaic.ValueIdx Idealize.ShloMosaic.TcCoe Idealize.SL.Sem

variable (m : (ℓ : Loc nD τ sig) → Buf (Elt Ideal) ℓ)

/-- The result as one function of the arrays the region finds. -/
def G (c : Dev nD) : S131072x1.Idx → EReal :=
  Spec.scores (V m c main_v1) (V m c main_v3) (V m c main_v5) (V m c main_v7)
    (V m c main_v9) (fun q => V m c main_v18 (ix2 (0 : Fin 1) q)) (V m c main_v11) (fun q => V m c main_v19 (ix2 (0 : Fin 1) q))
    (V m c main_v13) (fun q => V m c main_v20 (ix2 (0 : Fin 1) q)) (V m c main_v15) (fun q => V m c main_v21 (ix2 (0 : Fin 1) q))
    (V m c main_v17) (fun q => V m c main_v22 (ix2 (0 : Fin 1) q))

end Cert.KernelIdeal.RowValue

end
-- ==== Proof.KernelValue.lean ====
/-
  The kernel's result array after the run, as one function of the arrays its region finds: row `b` of the result is the
  score (`Spec.score`) of row `b` of the four gathered embedding arrays. Grid point `t` works on rows
  `1024 t … 1024 t + 1023`: its four embedding blocks are those rows, its weight and bias blocks the whole arrays, and it
  writes those rows of the result; the 128 blocks tile the result.
-/
import proofs.«413763_j3805341024787_1_alg».proof.Proof.Gen.KernelIdeal.Value
import proofs.«413763_j3805341024787_1_alg».proof.Proof.KernelBlkA
import proofs.«413763_j3805341024787_1_alg».proof.Proof.KernelBlkB
import proofs.«413763_j3805341024787_1_alg».proof.Proof.KernelBlkC
import proofs.«413763_j3805341024787_1_alg».proof.Proof.KernelG

set_option maxRecDepth 100000

noncomputable section

namespace Cert.KernelIdeal.RowValue

open Cert.KernelIdeal Cert.KernelIdeal.Gen Cert.KernelIdeal.Value Idealize.ShloMosaic Idealize.ShloMosaic.ValueIdx Idealize.ShloMosaic.TcCoe Idealize.SL.Sem
open Idealize.ShloMosaic.Pipeline (Dat)
open Cert.KernelIdeal.Blocks

variable (m : (ℓ : Loc nD τ sig) → Buf (Elt Ideal) ℓ) (ρ : Dev nD → PrngReg)

/-- Row `r` of `Spec.scores` is the score of row `r` of the four embedding arrays. -/
theorem scores_at (UC IC : (⟨2, ![131072, 960]⟩ : Shape).Idx → EReal) (US IS : (⟨2, ![131072, 32]⟩ : Shape).Idx → EReal)
    (WtT : (⟨2, ![960, 960]⟩ : Shape).Idx → EReal) (bt : Fin 960 → EReal) (W1T : (⟨2, ![1024, 512]⟩ : Shape).Idx → EReal) (b1 : Fin 512 → EReal)
    (W2T : (⟨2, ![512, 256]⟩ : Shape).Idx → EReal) (b2 : Fin 256 → EReal) (W3T : (⟨2, ![256, 128]⟩ : Shape).Idx → EReal) (b3 : Fin 128 → EReal)
    (WrT : (⟨2, ![128, 1]⟩ : Shape).Idx → EReal) (br : Fin 1 → EReal) (r : Fin 131072) :
    Spec.scores UC IC US IS WtT bt W1T b1 W2T b2 W3T b3 WrT br (ix2 r (0 : Fin 1))
      = Spec.score (fun k => UC (ix2 r k)) (fun k => IC (ix2 r k)) (fun k => US (ix2 r k)) (fun k => IS (ix2 r k))
          WtT bt W1T b1 W2T b2 W3T b3 WrT br := rfl

/-- What point `t` writes back is block `t` of `G`. -/
theorem flushed_eq (c : Dev nD) (t : Fin cfg0.N) :
    (dats m 0 c).flushed 14 t = ((cfg0.win 14).blk t).view.read (Elt Ideal) (G m c) := by
  rw [Value.flushed14]
  funext y
  obtain ⟨p, q, rfl⟩ : ∃ (p : Fin 1024) (q : Fin 1), y = ix2 p q := ⟨y 0, y 1, eq_ix2 y⟩
  have hq : q = 0 := Subsingleton.elim _ _
  subst hq
  show out0_14 (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (iblk m c 13 t) (ix2 p (0 : Fin 1))
    = G m c (((cfg0.win 14).blk t).view.emb (ix2 p (0 : Fin 1)))
  rw [out_row, emb14]
  unfold G
  rw [scores_at]
  simp only [blk0, blk1, blk2, blk3, blk4, blk5, blk6, blk7, blk8, blk9, blk10, blk11, blk12, blk13]

/-- The result array after the run is `G`. -/
theorem final (c : Dev nD) : (dats m 0 c).arrAt 14 cfg0.N = G m c :=
  (dats m 0 c).arrAt_eq_of_cover 14 (G m c) (fun t _ => flushed_eq m c t) cover

/-- The kernel's run: the result array ends at `G`, the arguments unchanged. -/
theorem run : θ_run defs (onTc (τ := τ) (main (F := Ideal))) ⟨m, fun _ => 0, ρ⟩ fun r => ∀ c : Dev nD,
      r.2.mem ((c : Thread nD τ).loc main_v23) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15) :=
  (θ_run defs _ _).mono (fun r h c => ⟨(h c).1.trans (final m c), (h c).2⟩) (Value.run_blocks m ρ)

end Cert.KernelIdeal.RowValue

end
-- ==== Proof.HostArrays.lean ====
/-
  The arrays the kernel's one region finds in its fourteen input windows, as functions of the program's arguments:
  the four embedding tables gathered at the wrapped row / column numbers (a fill-mode take: out-of-range numbers would
  read the fill value), the five weight matrices transposed, the five bias vectors as rows. Casts to bf16 change
  nothing over the extended reals.
-/
import proofs.«413763_j3805341024787_1_alg».proof.Proof.Gen.KernelIdeal.Frame
import Idealize.ShloMosaic.Lib.StableHlo.Run
import Idealize.ShloMosaic.Lib.ValueIdx

set_option maxHeartbeats 4000000
-- a buffer's type is read off the program's table of some hundred buffers
set_option maxRecDepth 100000

noncomputable section

namespace Cert.KernelIdeal.HostArrays

open Cert.KernelIdeal Cert.KernelIdeal.Gen Idealize.ShloMosaic Idealize.ShloMosaic.TcCoe Idealize.SL.Sem Idealize.ShloMosaic.StableHlo

/-- The row numbers wrapped as numpy does (`x + n` when `x < 0`), as a `[B, 1]` column of start indices. -/
def wrapCol (n : BitVec 32) (r : IVec S131072 32) : IVec S131072x1 32 :=
  broadcastInDim S131072x1 ![0] bcast_S131072_S131072x1_0
    (select (cmpi .slt r (broadcastInDim S131072 ![] bcast_S_S131072 (constantI S_ 32 0#32)))
      (addi r (broadcastInDim S131072 ![] bcast_S_S131072 (constantI S_ 32 n))) r)

/-- Which wrapped numbers are in range: `0 ≤ w` and `w ≤ hi`, and-reduced over the unit axis. -/
def okMask (hi : BitVec 32) (W : IVec S131072x1 32) : IVec S131072 1 :=
  Host.reduce IntOp.andi
    (andi (cmpi .sge W (broadcastInDim S131072x1 ![] bcast_S_S131072x1 (constantI S_ 32 0#32)))
      (cmpi .sle W (broadcastInDim S131072x1 ![0, 1] bcast_S1x1_S131072x1_0_1 (broadcastInDim S1x1 ![1] bcast_S1_S1x1_1 (constantI S1 32 hi)))))
    (constantI S_ 1 1#1) reducesTo_S131072x1_S131072_d1 h_S_

/-- Running two lists of host operations one after the other. -/
theorem after_append {Val : EltTy → Type} (l1 l2 : List (HloOp τ sig Val)) (F : Valuation τ sig Val) :
    StableHlo.after (l1 ++ l2) F = StableHlo.after l2 (StableHlo.after l1 F) := by
  induction l1 generalizing F with
  | nil => rfl
  | cons op l ih => simp only [List.cons_append, StableHlo.after_cons, ih]

/-- A value carried to a typed reference's buffer type and back is itself. -/
theorem ofBuf_toBuf {Val : EltTy → Type} {T : BufTy} (x : StableHlo.TRef sig T) (v : T.Contents Val) : x.ofBuf (x.toBuf v) = v := by
  obtain ⟨r, h, h2, h3⟩ := x
  subst h
  rfl

/-! At a literal reference the carried type is the buffer's own, and the transport is the identity. -/
theorem ofBuf_arg0 (p1 : (main_arg0 : Ref sig .tc).ty = ⟨S131072, .i32⟩) (p2 : (main_arg0 : Ref sig .tc).space ≠ .host) (p3 : (main_arg0 : Ref sig .tc).isScoped = false)
    (v : (⟨S131072, .i32⟩ : BufTy).Contents (Elt Ideal)) :
    (StableHlo.TRef.of (T := ⟨S131072, .i32⟩) main_arg0 p1 p2 p3).ofBuf (Val := Elt Ideal) v = v := rfl
theorem ofBuf_arg1 (p1 : (main_arg1 : Ref sig .tc).ty = ⟨S131072, .i32⟩) (p2 : (main_arg1 : Ref sig .tc).space ≠ .host) (p3 : (main_arg1 : Ref sig .tc).isScoped = false)
    (v : (⟨S131072, .i32⟩ : BufTy).Contents (Elt Ideal)) :
    (StableHlo.TRef.of (T := ⟨S131072, .i32⟩) main_arg1 p1 p2 p3).ofBuf (Val := Elt Ideal) v = v := rfl
theorem ofBuf_arg2 (p1 : (main_arg2 : Ref sig .tc).ty = ⟨S100000x960, .f32⟩) (p2 : (main_arg2 : Ref sig .tc).space ≠ .host) (p3 : (main_arg2 : Ref sig .tc).isScoped = false)
    (v : (⟨S100000x960, .f32⟩ : BufTy).Contents (Elt Ideal)) :
    (StableHlo.TRef.of (T := ⟨S100000x960, .f32⟩) main_arg2 p1 p2 p3).ofBuf (Val := Elt Ideal) v = v := rfl
theorem ofBuf_arg3 (p1 : (main_arg3 : Ref sig .tc).ty = ⟨S50000x960, .f32⟩) (p2 : (main_arg3 : Ref sig .tc).space ≠ .host) (p3 : (main_arg3 : Ref sig .tc).isScoped = false)
    (v : (⟨S50000x960, .f32⟩ : BufTy).Contents (Elt Ideal)) :
    (StableHlo.TRef.of (T := ⟨S50000x960, .f32⟩) main_arg3 p1 p2 p3).ofBuf (Val := Elt Ideal) v = v := rfl
theorem ofBuf_arg4 (p1 : (main_arg4 : Ref sig .tc).ty = ⟨S100000x32, .f32⟩) (p2 : (main_arg4 : Ref sig .tc).space ≠ .host) (p3 : (main_arg4 : Ref sig .tc).isScoped = false)
    (v : (⟨S100000x32, .f32⟩ : BufTy).Contents (Elt Ideal)) :
    (StableHlo.TRef.of (T := ⟨S100000x32, .f32⟩) main_arg4 p1 p2 p3).ofBuf (Val := Elt Ideal) v = v := rfl
theorem ofBuf_arg5 (p1 : (main_arg5 : Ref sig .tc).ty = ⟨S50000x32, .f32⟩) (p2 : (main_arg5 : Ref sig .tc).space ≠ .host) (p3 : (main_arg5 : Ref sig .tc).isScoped = false)
    (v : (⟨S50000x32, .f32⟩ : BufTy).Contents (Elt Ideal)) :
    (StableHlo.TRef.of (T := ⟨S50000x32, .f32⟩) main_arg5 p1 p2 p3).ofBuf (Val := Elt Ideal) v = v := rfl
theorem toBuf_v0 (p1 : (main_v0 : Ref sig .tc).ty = ⟨S131072x960, .f32⟩) (p2 : (main_v0 : Ref sig .tc).space ≠ .host) (p3 : (main_v0 : Ref sig .tc).isScoped = false)
    (v : (⟨S131072x960, .f32⟩ : BufTy).Contents (Elt Ideal)) :
    (StableHlo.TRef.of (T := ⟨S131072x960, .f32⟩) main_v0 p1 p2 p3).toBuf (Val := Elt Ideal) v = v := rfl
theorem toBuf_v2 (p1 : (main_v2 : Ref sig .tc).ty = ⟨S131072x960, .f32⟩) (p2 : (main_v2 : Ref sig .tc).space ≠ .host) (p3 : (main_v2 : Ref sig .tc).isScoped = false)
    (v : (⟨S131072x960, .f32⟩ : BufTy).Contents (Elt Ideal)) :
    (StableHlo.TRef.of (T := ⟨S131072x960, .f32⟩) main_v2 p1 p2 p3).toBuf (Val := Elt Ideal) v = v := rfl
theorem toBuf_v4 (p1 : (main_v4 : Ref sig .tc).ty = ⟨S131072x32, .f32⟩) (p2 : (main_v4 : Ref sig .tc).space ≠ .host) (p3 : (main_v4 : Ref sig .tc).isScoped = false)
    (v : (⟨S131072x32, .f32⟩ : BufTy).Contents (Elt Ideal)) :
    (StableHlo.TRef.of (T := ⟨S131072x32, .f32⟩) main_v4 p1 p2 p3).toBuf (Val := Elt Ideal) v = v := rfl
theorem toBuf_v6 (p1 : (main_v6 : Ref sig .tc).ty = ⟨S131072x32, .f32⟩) (p2 : (main_v6 : Ref sig .tc).space ≠ .host) (p3 : (main_v6 : Ref sig .tc).isScoped = false)
    (v : (⟨S131072x32, .f32⟩ : BufTy).Contents (Elt Ideal)) :
    (StableHlo.TRef.of (T := ⟨S131072x32, .f32⟩) main_v6 p1 p2 p3).toBuf (Val := Elt Ideal) v = v := rfl

variable (m : (ℓ : Loc nD τ sig) → Buf (Elt Ideal) ℓ)

/-- The array the region finds in `main_v1`: the fill-mode take of the table's rows, cast to bf16. -/
theorem win0 (c : Dev nD) : @Eq (FVec Ideal S131072x960 .bf16) (V m c main_v1)
    (truncf (F := Ideal) .bf16
      (select (broadcastInDim S131072x960 ![0] bcast_S131072_S131072x960_0 (okMask 99999#32 (wrapCol 100000#32 (m ((c : Thread nD τ).loc main_arg0)))))
        (Host.gather gather_S100000x960_S131072x1_S131072x960_1_0_n_n_0_1_1960 ((m ((c : Thread nD τ).loc main_arg2)) : FVec Ideal S100000x960 .f32) (wrapCol 100000#32 (m ((c : Thread nD τ).loc main_arg0))))
        (broadcastInDim S131072x960 ![] bcast_S_S131072x960 (constant (F := Ideal) S_ .f32 0x7FC00000#32)))
      bitsLt_bf16_f32) := by
  have hcut : @Eq (FVec Ideal _ .bf16) (V m c main_v1)
      (StableHlo.after (hostOps0 ++ hostOps0_1) (fun b => m (c, b)) (Proc.devRef .tc main_v1)) := by
    dsimp only [Gen.V]
    rw [show List.flatten [hostOps0, hostOps0_1, hostOps0_2, hostOps0_3, hostOps0_4, hostOps0_5, hostOps0_6, hostOps0_7] = (hostOps0 ++ hostOps0_1) ++ (hostOps0_2 ++ hostOps0_3 ++ hostOps0_4 ++ hostOps0_5 ++ hostOps0_6 ++ hostOps0_7) by
      simp only [List.flatten_cons, List.flatten_nil, List.append_nil, List.append_assoc]]
    rw [after_append]
    exact StableHlo.after_of_forall_not_mem (b := Proc.devRef .tc main_v1) _ _ (List.forall_iff_forall_mem.mp (by
      simp only [hostOps0_2, hostOps0_3, hostOps0_4, hostOps0_5, hostOps0_6, hostOps0_7, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
  rw [hcut]
  simp only [hostOps0, hostOps0_1, List.cons_append, List.nil_append]
  after_results_simp
  simp only [ofBuf_toBuf, ofBuf_arg0, ofBuf_arg1, ofBuf_arg2, ofBuf_arg3, ofBuf_arg4, ofBuf_arg5, toBuf_v0, toBuf_v2, toBuf_v4, toBuf_v6]
  unfold okMask wrapCol
  rfl

/-- The array the region finds in `main_v3`: the fill-mode take of the table's rows, cast to bf16. -/
theorem win1 (c : Dev nD) : @Eq (FVec Ideal S131072x960 .bf16) (V m c main_v3)
    (truncf (F := Ideal) .bf16
      (select (broadcastInDim S131072x960 ![0] bcast_S131072_S131072x960_0 (okMask 49999#32 (wrapCol 50000#32 (m ((c : Thread nD τ).loc main_arg1)))))
        (Host.gather gather_S50000x960_S131072x1_S131072x960_1_0_n_n_0_1_1960 ((m ((c : Thread nD τ).loc main_arg3)) : FVec Ideal S50000x960 .f32) (wrapCol 50000#32 (m ((c : Thread nD τ).loc main_arg1))))
        (broadcastInDim S131072x960 ![] bcast_S_S131072x960 (constant (F := Ideal) S_ .f32 0x7FC00000#32)))
      bitsLt_bf16_f32) := by
  have hcut : @Eq (FVec Ideal _ .bf16) (V m c main_v3)
      (StableHlo.after (hostOps0 ++ hostOps0_1 ++ hostOps0_2 ++ hostOps0_3) (fun b => m (c, b)) (Proc.devRef .tc main_v3)) := by
    dsimp only [Gen.V]
    rw [show List.flatten [hostOps0, hostOps0_1, hostOps0_2, hostOps0_3, hostOps0_4, hostOps0_5, hostOps0_6, hostOps0_7] = (hostOps0 ++ hostOps0_1 ++ hostOps0_2 ++ hostOps0_3) ++ (hostOps0_4 ++ hostOps0_5 ++ hostOps0_6 ++ hostOps0_7) by
      simp only [List.flatten_cons, List.flatten_nil, List.append_nil, List.append_assoc]]
    rw [after_append]
    exact StableHlo.after_of_forall_not_mem (b := Proc.devRef .tc main_v3) _ _ (List.forall_iff_forall_mem.mp (by
      simp only [hostOps0_4, hostOps0_5, hostOps0_6, hostOps0_7, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
  rw [hcut]
  simp only [hostOps0, hostOps0_1, hostOps0_2, hostOps0_3, List.cons_append, List.nil_append]
  after_results_simp
  simp only [ofBuf_toBuf, ofBuf_arg0, ofBuf_arg1, ofBuf_arg2, ofBuf_arg3, ofBuf_arg4, ofBuf_arg5, toBuf_v0, toBuf_v2, toBuf_v4, toBuf_v6]
  unfold okMask wrapCol
  rfl

/-- The array the region finds in `main_v5`: the fill-mode take of the table's rows, cast to bf16. -/
theorem win2 (c : Dev nD) : @Eq (FVec Ideal S131072x32 .bf16) (V m c main_v5)
    (truncf (F := Ideal) .bf16
      (select (broadcastInDim S131072x32 ![0] bcast_S131072_S131072x32_0 (okMask 99999#32 (wrapCol 100000#32 (m ((c : Thread nD τ).loc main_arg0)))))
        (Host.gather gather_S100000x32_S131072x1_S131072x32_1_0_n_n_0_1_132 ((m ((c : Thread nD τ).loc main_arg4)) : FVec Ideal S100000x32 .f32) (wrapCol 100000#32 (m ((c : Thread nD τ).loc main_arg0))))
        (broadcastInDim S131072x32 ![] bcast_S_S131072x32 (constant (F := Ideal) S_ .f32 0x7FC00000#32)))
      bitsLt_bf16_f32) := by
  have hcut : @Eq (FVec Ideal _ .bf16) (V m c main_v5)
      (StableHlo.after (hostOps0 ++ hostOps0_1 ++ hostOps0_2 ++ hostOps0_3 ++ hostOps0_4 ++ hostOps0_5) (fun b => m (c, b)) (Proc.devRef .tc main_v5)) := by
    dsimp only [Gen.V]
    rw [show List.flatten [hostOps0, hostOps0_1, hostOps0_2, hostOps0_3, hostOps0_4, hostOps0_5, hostOps0_6, hostOps0_7] = (hostOps0 ++ hostOps0_1 ++ hostOps0_2 ++ hostOps0_3 ++ hostOps0_4 ++ hostOps0_5) ++ (hostOps0_6 ++ hostOps0_7) by
      simp only [List.flatten_cons, List.flatten_nil, List.append_nil, List.append_assoc]]
    rw [after_append]
    exact StableHlo.after_of_forall_not_mem (b := Proc.devRef .tc main_v5) _ _ (List.forall_iff_forall_mem.mp (by
      simp only [hostOps0_6, hostOps0_7, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
  rw [hcut]
  simp only [hostOps0, hostOps0_1, hostOps0_2, hostOps0_3, hostOps0_4, hostOps0_5, List.cons_append, List.nil_append]
  after_results_simp
  simp only [ofBuf_toBuf, ofBuf_arg0, ofBuf_arg1, ofBuf_arg2, ofBuf_arg3, ofBuf_arg4, ofBuf_arg5, toBuf_v0, toBuf_v2, toBuf_v4, toBuf_v6]
  unfold okMask wrapCol
  rfl

/-- The array the region finds in `main_v7`: the fill-mode take of the table's rows, cast to bf16. -/
theorem win3 (c : Dev nD) : @Eq (FVec Ideal S131072x32 .bf16) (V m c main_v7)
    (truncf (F := Ideal) .bf16
      (select (broadcastInDim S131072x32 ![0] bcast_S131072_S131072x32_0 (okMask 49999#32 (wrapCol 50000#32 (m ((c : Thread nD τ).loc main_arg1)))))
        (Host.gather gather_S50000x32_S131072x1_S131072x32_1_0_n_n_0_1_132 ((m ((c : Thread nD τ).loc main_arg5)) : FVec Ideal S50000x32 .f32) (wrapCol 50000#32 (m ((c : Thread nD τ).loc main_arg1))))
        (broadcastInDim S131072x32 ![] bcast_S_S131072x32 (constant (F := Ideal) S_ .f32 0x7FC00000#32)))
      bitsLt_bf16_f32) := by
  dsimp only [Gen.V]
  simp only [Gen.hostOps0, Gen.hostOps0_1, Gen.hostOps0_2, Gen.hostOps0_3, Gen.hostOps0_4, Gen.hostOps0_5, Gen.hostOps0_6, Gen.hostOps0_7,
    List.flatten_cons, List.flatten_nil, List.append_nil, List.cons_append, List.nil_append]
  after_results_simp
  simp only [ofBuf_toBuf, ofBuf_arg0, ofBuf_arg1, ofBuf_arg2, ofBuf_arg3, ofBuf_arg4, ofBuf_arg5, toBuf_v0, toBuf_v2, toBuf_v4, toBuf_v6]
  unfold okMask wrapCol
  rfl

/-- The array the region finds in `main_v9`: the weight matrix transposed, cast to bf16. -/
theorem win4 (c : Dev nD) : @Eq (FVec Ideal S960x960 .bf16) (V m c main_v9)
    (truncf (F := Ideal) .bf16 (transpose S960x960 [1, 0] ((m ((c : Thread nD τ).loc main_arg6)) : FVec Ideal S960x960 .f32) transposes_S960x960_S960x960_1_0) bitsLt_bf16_f32) := by
  rfl

/-- The array the region finds in `main_v11`: the weight matrix transposed, cast to bf16. -/
theorem win6 (c : Dev nD) : @Eq (FVec Ideal S1024x512 .bf16) (V m c main_v11)
    (truncf (F := Ideal) .bf16 (transpose S1024x512 [1, 0] ((m ((c : Thread nD τ).loc main_arg8)) : FVec Ideal S512x1024 .f32) transposes_S512x1024_S1024x512_1_0) bitsLt_bf16_f32) := by
  rfl

/-- The array the region finds in `main_v13`: the weight matrix transposed, cast to bf16. -/
theorem win8 (c : Dev nD) : @Eq (FVec Ideal S512x256 .bf16) (V m c main_v13)
    (truncf (F := Ideal) .bf16 (transpose S512x256 [1, 0] ((m ((c : Thread nD τ).loc main_arg10)) : FVec Ideal S256x512 .f32) transposes_S256x512_S512x256_1_0) bitsLt_bf16_f32) := by
  rfl

/-- The array the region finds in `main_v15`: the weight matrix transposed, cast to bf16. -/
theorem win10 (c : Dev nD) : @Eq (FVec Ideal S256x128 .bf16) (V m c main_v15)
    (truncf (F := Ideal) .bf16 (transpose S256x128 [1, 0] ((m ((c : Thread nD τ).loc main_arg12)) : FVec Ideal S128x256 .f32) transposes_S128x256_S256x128_1_0) bitsLt_bf16_f32) := by
  rfl

/-- The array the region finds in `main_v17`: the weight matrix transposed, cast to bf16. -/
theorem win12 (c : Dev nD) : @Eq (FVec Ideal S128x1 .bf16) (V m c main_v17)
    (truncf (F := Ideal) .bf16 (transpose S128x1 [1, 0] ((m ((c : Thread nD τ).loc main_arg14)) : FVec Ideal S1x128 .f32) transposes_S1x128_S128x1_1_0) bitsLt_bf16_f32) := by
  rfl

/-- The array the region finds in `main_v18`: the bias vector as one row. -/
theorem win5 (c : Dev nD) : @Eq (FVec Ideal S1x960 .f32) (V m c main_v18)
    (shapeCast S1x960 ((m ((c : Thread nD τ).loc main_arg7)) : FVec Ideal S960 .f32) shapeCasts_S960_S1x960) := by
  rfl

/-- The array the region finds in `main_v19`: the bias vector as one row. -/
theorem win7 (c : Dev nD) : @Eq (FVec Ideal S1x512 .f32) (V m c main_v19)
    (shapeCast S1x512 ((m ((c : Thread nD τ).loc main_arg9)) : FVec Ideal S512 .f32) shapeCasts_S512_S1x512) := by
  rfl

/-- The array the region finds in `main_v20`: the bias vector as one row. -/
theorem win9 (c : Dev nD) : @Eq (FVec Ideal S1x256 .f32) (V m c main_v20)
    (shapeCast S1x256 ((m ((c : Thread nD τ).loc main_arg11)) : FVec Ideal S256 .f32) shapeCasts_S256_S1x256) := by
  rfl

/-- The array the region finds in `main_v21`: the bias vector as one row. -/
theorem win11 (c : Dev nD) : @Eq (FVec Ideal S1x128 .f32) (V m c main_v21)
    (shapeCast S1x128 ((m ((c : Thread nD τ).loc main_arg13)) : FVec Ideal S128 .f32) shapeCasts_S128_S1x128) := by
  rfl

/-- The array the region finds in `main_v22`: the bias vector as one row. -/
theorem win13 (c : Dev nD) : @Eq (FVec Ideal S1x1 .f32) (V m c main_v22)
    (shapeCast S1x1 ((m ((c : Thread nD τ).loc main_arg15)) : FVec Ideal S1 .f32) shapeCasts_S1_S1x1) := by
  rfl

end Cert.KernelIdeal.HostArrays

end
-- ==== Proof.Domain.lean ====
/-
  A row number that is a valid numpy index of an `n`-row table (`-n ≤ x < n`), wrapped as both programs wrap it
  (`x + n` when `x < 0`), lies in `0 … n - 1`. So the in-range mask that a fill-mode `take` computes from the wrapped
  numbers — `0 ≤ w` and `w ≤ n - 1`, and-reduced over the unit axis and broadcast over the row — is all ones, and the
  `select` between the gathered rows and the fill value is the gathered rows.
-/
import Idealize.ShloMosaic.Lib.ReduceAll
import Idealize.ShloMosaic.Lib.Pipeline.Value
import Idealize.ShloMosaic.Lib.ValueIdx
import Idealize.ShloMosaic.Lib.StableHlo.Predicate

noncomputable section

namespace Cert.Domain

open Idealize.ShloMosaic Idealize.ShloMosaic.ValueIdx

/-- A left fold by `and` that starts at 1 and meets only 1s is 1. -/
theorem foldl_andi_one {ι : Type} (f : ι → BitVec 1) :
    ∀ (l : List ι) (init : BitVec 1), init = 1#1 → (∀ n ∈ l, f n = 1#1) → l.foldl (fun r n => IntOp.andi r (f n)) init = 1#1
  | [], _, h, _ => h
  | a :: l, _, h, hl =>
    foldl_andi_one f l _ (IntOp.andi_eq_one.2 ⟨h, hl a (List.mem_cons_self ..)⟩) (fun n hn => hl n (List.mem_cons_of_mem _ hn))

/-- A `reduce` by `and` of an all-ones mask from an all-ones initial value is 1 at every result index. -/
theorem reduce_andi_one {s t u : Shape} {axes : List (Fin s.rank)} (x : s.Idx → BitVec 1) (init : u.Idx → BitVec 1)
    (h : s.ReducesTo axes t) (hu : 0 < u.numel) (hinit : ∀ i, init i = 1#1) (hx : ∀ i, x i = 1#1) (j : t.Idx) :
    Host.reduce IntOp.andi x init h hu j = 1#1 := by
  rw [Host.reduce_eq_foldl]
  exact foldl_andi_one x _ _ (hinit _) (fun n _ => hx n)

/-- The wrapped row number is in range: `0 ≤ w` and `w ≤ n - 1`, as signed words. -/
theorem wrap_in_range (n : Nat) (hn0 : 0 < n) (hn : n < 2 ^ 30) (x : BitVec 32)
    (h1 : -(n : Int) ≤ x.toInt) (h2 : x.toInt < n) :
    IntOp.cmpi .sge (Scalar.select (IntOp.cmpi .slt x 0#32) (IntOp.addi x (BitVec.ofNat 32 n)) x) 0#32 = 1#1
    ∧ IntOp.cmpi .sle (Scalar.select (IntOp.cmpi .slt x 0#32) (IntOp.addi x (BitVec.ofNat 32 n)) x) (BitVec.ofNat 32 (n - 1)) = 1#1 := by
  have hz : (0#32 : BitVec 32).toInt = 0 := by decide
  have hhi : (BitVec.ofNat 32 (n - 1)).toInt = ((n - 1 : Nat) : Int) :=
    StableHlo.Predicate.toInt_ofNat_small (n - 1) (by omega)
  have hnn : (BitVec.ofNat 32 n).toInt = (n : Int) := StableHlo.Predicate.toInt_ofNat_small n (by omega)
  by_cases hx : x.toInt < 0
  · have hc : IntOp.cmpi .slt x 0#32 = 1#1 := IntOp.cmpi_slt.2 (by rw [hz]; exact hx)
    rw [hc, ValueIdx.select_one]
    have hw : (IntOp.addi x (BitVec.ofNat 32 n)).toInt = x.toInt + n := by
      show (x + BitVec.ofNat 32 n).toInt = _
      rw [BitVec.toInt_add, hnn]
      simp only [Int.bmod_def]
      norm_num
      omega
    exact ⟨IntOp.cmpi_sge.2 (by rw [hz, hw]; omega), IntOp.cmpi_sle.2 (by rw [hhi, hw]; omega)⟩
  · have hc : IntOp.cmpi .slt x 0#32 = 0#1 :=
      ValueIdx.eq_zero_of_ne_one (fun h => hx (by have := IntOp.cmpi_slt.1 h; rwa [hz] at this))
    rw [hc, ValueIdx.select_zero]
    exact ⟨IntOp.cmpi_sge.2 (by rw [hz]; omega), IntOp.cmpi_sle.2 (by rw [hhi]; omega)⟩

/-- The in-range mask of a fill-mode `take`, computed from the wrapped row numbers `r` as the lowered program does
    (`0 ≤ w` and `w ≤ n - 1` on the `[B, 1]` column of wrapped numbers, and-reduced over the unit axis), is 1 at every
    row when every row number is a valid index. -/
theorem take_mask_one {B : Nat} (n : Nat) (hn0 : 0 < n) (hn : n < 2 ^ 30)
    (r : IVec ⟨1, ![B]⟩ 32) (hr : ∀ i, -(n : Int) ≤ (r i).toInt ∧ (r i).toInt < n)
    (b0 : (⟨0, ![]⟩ : Shape).BroadcastsInDim ⟨1, ![B]⟩ ![]) (b1 : (⟨1, ![B]⟩ : Shape).BroadcastsInDim ⟨2, ![B, 1]⟩ ![0])
    (b2 : (⟨0, ![]⟩ : Shape).BroadcastsInDim ⟨2, ![B, 1]⟩ ![])
    (b3 : (⟨1, ![1]⟩ : Shape).BroadcastsInDim ⟨2, ![1, 1]⟩ ![1]) (b4 : (⟨2, ![1, 1]⟩ : Shape).BroadcastsInDim ⟨2, ![B, 1]⟩ ![0, 1])
    (hred : (⟨2, ![B, 1]⟩ : Shape).ReducesTo [1] ⟨1, ![B]⟩) (hu : 0 < (⟨0, ![]⟩ : Shape).numel) (j : (⟨1, ![B]⟩ : Shape).Idx) :
    Host.reduce IntOp.andi
      (andi
        (cmpi .sge
          (broadcastInDim ⟨2, ![B, 1]⟩ ![0] b1 (select (cmpi .slt r (broadcastInDim ⟨1, ![B]⟩ ![] b0 (constantI ⟨0, ![]⟩ 32 0#32)))
            (addi r (broadcastInDim ⟨1, ![B]⟩ ![] b0 (constantI ⟨0, ![]⟩ 32 (BitVec.ofNat 32 n)))) r))
          (broadcastInDim ⟨2, ![B, 1]⟩ ![] b2 (constantI ⟨0, ![]⟩ 32 0#32)))
        (cmpi .sle
          (broadcastInDim ⟨2, ![B, 1]⟩ ![0] b1 (select (cmpi .slt r (broadcastInDim ⟨1, ![B]⟩ ![] b0 (constantI ⟨0, ![]⟩ 32 0#32)))
            (addi r (broadcastInDim ⟨1, ![B]⟩ ![] b0 (constantI ⟨0, ![]⟩ 32 (BitVec.ofNat 32 n)))) r))
          (broadcastInDim ⟨2, ![B, 1]⟩ ![0, 1] b4 (broadcastInDim ⟨2, ![1, 1]⟩ ![1] b3 (constantI ⟨1, ![1]⟩ 32 (BitVec.ofNat 32 (n - 1)))))))
      (constantI ⟨0, ![]⟩ 1 1#1) hred hu j = 1#1 :=
  reduce_andi_one _ _ hred hu (fun _ => rfl) (fun i' => by
    obtain ⟨x, hx, hW⟩ : ∃ x : BitVec 32, (-(n : Int) ≤ x.toInt ∧ x.toInt < n) ∧
        (broadcastInDim ⟨2, ![B, 1]⟩ ![0] b1 (select (cmpi .slt r (broadcastInDim ⟨1, ![B]⟩ ![] b0 (constantI ⟨0, ![]⟩ 32 0#32)))
              (addi r (broadcastInDim ⟨1, ![B]⟩ ![] b0 (constantI ⟨0, ![]⟩ 32 (BitVec.ofNat 32 n)))) r)) i'
          = Scalar.select (IntOp.cmpi .slt x 0#32) (IntOp.addi x (BitVec.ofNat 32 n)) x :=
      ⟨r _, hr _, rfl⟩
    show IntOp.andi (IntOp.cmpi .sge (_) 0#32) (IntOp.cmpi .sle (_) (BitVec.ofNat 32 (n - 1))) = 1#1
    rw [hW]
    exact IntOp.andi_eq_one.2 (wrap_in_range n hn0 hn x hx.1 hx.2)) j

/-- A `select` whose condition is an all-ones row mask broadcast over the columns is its first branch. -/
theorem select_of_mask_one {B D : Nat} {α : Type} (M : IVec ⟨1, ![B]⟩ 1) (hM : ∀ j, M j = 1#1)
    (b5 : (⟨1, ![B]⟩ : Shape).BroadcastsInDim ⟨2, ![B, D]⟩ ![0]) (g fill : (⟨2, ![B, D]⟩ : Shape).Idx → α) :
    select (broadcastInDim ⟨2, ![B, D]⟩ ![0] b5 M) g fill = g := by
  funext i
  refine (congrArg (fun c => Scalar.select c (g i) (fill i)) ?_).trans (ValueIdx.select_one _ _)
  exact hM _

end Cert.Domain

end
-- ==== Proof.RefBody.lean ====
/-
  The reference's result, entry by entry: row `b` of its result is the score (`Spec.score`) of row `b` of the four
  gathered embedding arrays, with the weight matrices transposed and the bias vectors as rows. Each layer is a host
  `dot_general` plus the bias broadcast twice, read at an entry as the same sum the kernel's product is.
-/
import proofs.«413763_j3805341024787_1_alg».proof.Proof.Gen.ReferenceIdeal.Read
import proofs.«413763_j3805341024787_1_alg».proof.Proof.Layers

noncomputable section

namespace Cert.ReferenceIdeal.Body

open Cert.ReferenceIdeal Cert.ReferenceIdeal.Gen Cert.ReferenceIdeal.Read Idealize.ShloMosaic Idealize.ShloMosaic.ValueIdx

/-! The five products' dimension numbers are the plain `M×K · K×N` ones. -/
theorem d960 : dot_S131072x960_S960x960_S131072x960_1_0_0_1_n_n = DotDims.plain 131072 960 960 := rfl
theorem d1024 : dot_S131072x1024_S1024x512_S131072x512_1_0_0_1_n_n = DotDims.plain 131072 1024 512 := rfl
theorem d512 : dot_S131072x512_S512x256_S131072x256_1_0_0_1_n_n = DotDims.plain 131072 512 256 := rfl
theorem d256 : dot_S131072x256_S256x128_S131072x128_1_0_0_1_n_n = DotDims.plain 131072 256 128 := rfl
theorem d128 : dot_S131072x128_S128x1_S131072x1_1_0_0_1_n_n = DotDims.plain 131072 128 1 := rfl

/-- The reference's result is `Spec.scores` of the gathered arrays, the transposed weights and the biases. -/
theorem result_eq (x0 x1 : (⟨S131072, .i32⟩ : BufTy).Contents (Elt Ideal)) (x2 : (⟨S100000x960, .f32⟩ : BufTy).Contents (Elt Ideal)) (x3 : (⟨S50000x960, .f32⟩ : BufTy).Contents (Elt Ideal)) (x4 : (⟨S100000x32, .f32⟩ : BufTy).Contents (Elt Ideal)) (x5 : (⟨S50000x32, .f32⟩ : BufTy).Contents (Elt Ideal)) (x6 : (⟨S960x960, .f32⟩ : BufTy).Contents (Elt Ideal)) (x7 : (⟨S960, .f32⟩ : BufTy).Contents (Elt Ideal)) (x8 : (⟨S512x1024, .f32⟩ : BufTy).Contents (Elt Ideal)) (x9 : (⟨S512, .f32⟩ : BufTy).Contents (Elt Ideal)) (x10 : (⟨S256x512, .f32⟩ : BufTy).Contents (Elt Ideal)) (x11 : (⟨S256, .f32⟩ : BufTy).Contents (Elt Ideal)) (x12 : (⟨S128x256, .f32⟩ : BufTy).Contents (Elt Ideal)) (x13 : (⟨S128, .f32⟩ : BufTy).Contents (Elt Ideal)) (x14 : (⟨S1x128, .f32⟩ : BufTy).Contents (Elt Ideal)) (x15 : (⟨S1, .f32⟩ : BufTy).Contents (Elt Ideal)) :
    val_main_v64 (F := Ideal) x0 x1 x2 x3 x4 x5 x6 x7 x8 x9 x10 x11 x12 x13 x14 x15
      = Spec.scores (val_main_v6 (F := Ideal) x0 x2) (val_main_v13 (F := Ideal) x1 x3) (val_main_v31 (F := Ideal) x0 x4) (val_main_v38 (F := Ideal) x1 x5)
          (val_main_v14 (F := Ideal) x6) (fun j => x7 (ix1 j)) (val_main_v40 (F := Ideal) x8) (fun j => x9 (ix1 j))
          (val_main_v46 (F := Ideal) x10) (fun j => x11 (ix1 j)) (val_main_v52 (F := Ideal) x12) (fun j => x13 (ix1 j))
          (val_main_v58 (F := Ideal) x14) (fun j => x15 (ix1 j)) := by
  funext i
  obtain ⟨p, q, rfl⟩ : ∃ (p : Fin 131072) (q : Fin 1), i = ix2 p q := ⟨i 0, i 1, eq_ix2 i⟩
  have hq : q = 0 := Subsingleton.elim _ _
  subst hq
  unfold val_main_v64 val_main_v63 val_main_cst val_main_v62 val_main_v61 val_main_v60 val_main_v59 val_main_v57 val_main_v56
    val_main_v55 val_main_v54 val_main_v53 val_main_v51 val_main_v50 val_main_v49 val_main_v48 val_main_v47 val_main_v45
    val_main_v44 val_main_v43 val_main_v42 val_main_v41 val_main_v39 val_main_v24 val_main_v23 val_main_v22 val_main_v21
    val_main_v20 val_main_v19 val_main_v18 val_main_v17 val_main_v16 val_main_v15
  rw [d960, d1024, d512, d256, d128]
  rw [ValueIdx.addf_apply, Layers.dense_dotGeneral]
  refine congrArg₂ (· + ·) (congrArg (fun f => Spec.dense f (val_main_v58 (F := Ideal) x14) (fun j => x15 (ix1 j)) 0) (funext fun k => ?_)) rfl
  rw [Layers.tanh_dotGeneral]
  refine congrArg (fun f => Spec.tanhLayer f (val_main_v52 (F := Ideal) x12) (fun j => x13 (ix1 j)) k) (funext fun k' => ?_)
  rw [Layers.tanh_dotGeneral]
  refine congrArg (fun f => Spec.tanhLayer f (val_main_v46 (F := Ideal) x10) (fun j => x11 (ix1 j)) k') (funext fun k'' => ?_)
  rw [Layers.tanh_dotGeneral]
  refine congrArg (fun f => Spec.tanhLayer f (val_main_v40 (F := Ideal) x8) (fun j => x9 (ix1 j)) k'') (funext fun k3 => ?_)
  rw [Layers.join3_concat']
  refine congrArg (fun f => Spec.join3 (fun k => val_main_v31 (F := Ideal) x0 x4 (ix2 p k)) (fun k => val_main_v38 (F := Ideal) x1 x5 (ix2 p k)) f k3) (funext fun q => ?_)
  rw [ValueIdx.mulf_apply, Layers.dense_dotGeneral, Layers.dense_dotGeneral]
  rfl

end Cert.ReferenceIdeal.Body

end
-- ==== Proof.Bridge.lean ====
/-
  The kernel's result, as a function of the program's own arguments, is the reference's: wherever every row and
  column number is a valid index, the fill-mode takes are the plain gathers the reference makes (of the same wrapped
  numbers), the transposed weights are the reference's transposes, and a bias vector reshaped to a row reads as the
  vector. So both results are `Spec.scores` of the same fourteen arrays.
-/
import proofs.«413763_j3805341024787_1_alg».proof.Proof.KernelG
import proofs.«413763_j3805341024787_1_alg».proof.Proof.HostArrays
import proofs.«413763_j3805341024787_1_alg».proof.Proof.Domain
import proofs.«413763_j3805341024787_1_alg».proof.Proof.RefBody
import Idealize.ShloMosaic.Lib.ValueLayout

set_option maxRecDepth 100000
set_option maxHeartbeats 4000000

noncomputable section

namespace Cert.Bridge

open Idealize.ShloMosaic Idealize.ShloMosaic.ValueIdx Idealize.ShloMosaic.TcCoe Idealize.SL.Sem
open Cert.KernelIdeal (S131072 S131072x1 S131072x960 S131072x32 S100000x960 S50000x960 S100000x32 S50000x32 S960x960 S512x1024 S256x512 S128x256 S1x128
  S1024x512 S512x256 S256x128 S128x1 S960 S512 S256 S128 S1 S1x960 S1x512 S1x256 S1x1)
open Cert.KernelIdeal.HostArrays (wrapCol okMask)

/-- Narrowing to bf16 changes nothing over the extended reals. -/
theorem truncf_id {s : Shape} {φ ψ : FTy} (X : FVec Ideal s φ) (h : ψ.bits < φ.bits) : @Eq (s.Idx → EReal) (truncf (F := Ideal) ψ X h) X := rfl

/-! The kernel program's gathers, at the wrapped numbers, are the reference's gathered arrays. -/
theorem gather0 (a0 : IVec S131072 32) (a2 : FVec Ideal S100000x960 .f32) :
    @Eq (S131072x960.Idx → EReal) (Host.gather Cert.KernelIdeal.gather_S100000x960_S131072x1_S131072x960_1_0_n_n_0_1_1960 a2 (wrapCol 100000#32 a0))
      (Cert.ReferenceIdeal.Read.val_main_v6 (F := Ideal) a0 a2) := rfl
theorem gather1 (a1 : IVec S131072 32) (a3 : FVec Ideal S50000x960 .f32) :
    @Eq (S131072x960.Idx → EReal) (Host.gather Cert.KernelIdeal.gather_S50000x960_S131072x1_S131072x960_1_0_n_n_0_1_1960 a3 (wrapCol 50000#32 a1))
      (Cert.ReferenceIdeal.Read.val_main_v13 (F := Ideal) a1 a3) := rfl
theorem gather2 (a0 : IVec S131072 32) (a4 : FVec Ideal S100000x32 .f32) :
    @Eq (S131072x32.Idx → EReal) (Host.gather Cert.KernelIdeal.gather_S100000x32_S131072x1_S131072x32_1_0_n_n_0_1_132 a4 (wrapCol 100000#32 a0))
      (Cert.ReferenceIdeal.Read.val_main_v31 (F := Ideal) a0 a4) := rfl
theorem gather3 (a1 : IVec S131072 32) (a5 : FVec Ideal S50000x32 .f32) :
    @Eq (S131072x32.Idx → EReal) (Host.gather Cert.KernelIdeal.gather_S50000x32_S131072x1_S131072x32_1_0_n_n_0_1_132 a5 (wrapCol 50000#32 a1))
      (Cert.ReferenceIdeal.Read.val_main_v38 (F := Ideal) a1 a5) := rfl

/-! The transposed weights are the reference's. -/
theorem tr4 (a : FVec Ideal S960x960 .f32) : @Eq (S960x960.Idx → EReal) (transpose S960x960 [1, 0] a Cert.KernelIdeal.Gen.transposes_S960x960_S960x960_1_0) (Cert.ReferenceIdeal.Read.val_main_v14 (F := Ideal) a) := rfl
theorem tr6 (a : FVec Ideal S512x1024 .f32) : @Eq (S1024x512.Idx → EReal) (transpose S1024x512 [1, 0] a Cert.KernelIdeal.Gen.transposes_S512x1024_S1024x512_1_0) (Cert.ReferenceIdeal.Read.val_main_v40 (F := Ideal) a) := rfl
theorem tr8 (a : FVec Ideal S256x512 .f32) : @Eq (S512x256.Idx → EReal) (transpose S512x256 [1, 0] a Cert.KernelIdeal.Gen.transposes_S256x512_S512x256_1_0) (Cert.ReferenceIdeal.Read.val_main_v46 (F := Ideal) a) := rfl
theorem tr10 (a : FVec Ideal S128x256 .f32) : @Eq (S256x128.Idx → EReal) (transpose S256x128 [1, 0] a Cert.KernelIdeal.Gen.transposes_S128x256_S256x128_1_0) (Cert.ReferenceIdeal.Read.val_main_v52 (F := Ideal) a) := rfl
theorem tr12 (a : FVec Ideal S1x128 .f32) : @Eq (S128x1.Idx → EReal) (transpose S128x1 [1, 0] a Cert.KernelIdeal.Gen.transposes_S1x128_S128x1_1_0) (Cert.ReferenceIdeal.Read.val_main_v58 (F := Ideal) a) := rfl

/-- A vector reshaped to one row reads, along the row, as the vector. -/
theorem bias_row {n : Nat} (a : (⟨1, ![n]⟩ : Shape).Idx → EReal) (h : (⟨1, ![n]⟩ : Shape).ShapeCasts ⟨2, ![1, n]⟩) :
    (fun q : Fin n => shapeCast ⟨2, ![1, n]⟩ a h (ix2 (0 : Fin 1) q)) = fun j => a (ix1 j) :=
  funext fun q => shapeCast_a_1a_apply a h 0 q

variable (m : (ℓ : Loc Cert.KernelIdeal.nD Cert.KernelIdeal.τ Cert.KernelIdeal.sig) → Buf (Elt Ideal) ℓ)

/-- **The kernel's result is the reference's function of the kernel's arguments**, wherever the index inputs are valid. -/
theorem G_eq (c : Dev Cert.KernelIdeal.nD)
    (hr0 : ∀ i, -(100000 : Int) ≤ ((m ((c : Thread Cert.KernelIdeal.nD Cert.KernelIdeal.τ).loc Cert.KernelIdeal.main_arg0)) i).toInt ∧ ((m ((c : Thread Cert.KernelIdeal.nD Cert.KernelIdeal.τ).loc Cert.KernelIdeal.main_arg0)) i).toInt < 100000)
    (hr1 : ∀ i, -(50000 : Int) ≤ ((m ((c : Thread Cert.KernelIdeal.nD Cert.KernelIdeal.τ).loc Cert.KernelIdeal.main_arg1)) i).toInt ∧ ((m ((c : Thread Cert.KernelIdeal.nD Cert.KernelIdeal.τ).loc Cert.KernelIdeal.main_arg1)) i).toInt < 50000) :
    Cert.KernelIdeal.RowValue.G m c
      = Cert.ReferenceIdeal.Read.val_main_v64 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10)) (m ((c : Thread Cert.KernelIdeal.nD Cert.KernelIdeal.τ).loc Cert.KernelIdeal.main_arg11)) (m ((c : Thread Cert.KernelIdeal.nD Cert.KernelIdeal.τ).loc Cert.KernelIdeal.main_arg12)) (m ((c : Thread Cert.KernelIdeal.nD Cert.KernelIdeal.τ).loc Cert.KernelIdeal.main_arg13)) (m ((c : Thread Cert.KernelIdeal.nD Cert.KernelIdeal.τ).loc Cert.KernelIdeal.main_arg14)) (m ((c : Thread Cert.KernelIdeal.nD Cert.KernelIdeal.τ).loc Cert.KernelIdeal.main_arg15)) := by
  rw [Cert.ReferenceIdeal.Body.result_eq]
  unfold Cert.KernelIdeal.RowValue.G
  rw [Cert.KernelIdeal.HostArrays.win0 m c, Cert.KernelIdeal.HostArrays.win1 m c, Cert.KernelIdeal.HostArrays.win2 m c, Cert.KernelIdeal.HostArrays.win3 m c,
    Cert.KernelIdeal.HostArrays.win4 m c, Cert.KernelIdeal.HostArrays.win5 m c, Cert.KernelIdeal.HostArrays.win6 m c, Cert.KernelIdeal.HostArrays.win7 m c,
    Cert.KernelIdeal.HostArrays.win8 m c, Cert.KernelIdeal.HostArrays.win9 m c, Cert.KernelIdeal.HostArrays.win10 m c, Cert.KernelIdeal.HostArrays.win11 m c,
    Cert.KernelIdeal.HostArrays.win12 m c, Cert.KernelIdeal.HostArrays.win13 m c]
  have h0 : ∀ j, okMask 99999#32 (wrapCol 100000#32 (m ((c : Thread Cert.KernelIdeal.nD Cert.KernelIdeal.τ).loc Cert.KernelIdeal.main_arg0))) j = 1#1 := fun j =>
    Domain.take_mask_one 100000 (by norm_num) (by norm_num) _ hr0 _ _ _ _ _ _ _ j
  have h1 : ∀ j, okMask 49999#32 (wrapCol 50000#32 (m ((c : Thread Cert.KernelIdeal.nD Cert.KernelIdeal.τ).loc Cert.KernelIdeal.main_arg1))) j = 1#1 := fun j =>
    Domain.take_mask_one 50000 (by norm_num) (by norm_num) _ hr1 _ _ _ _ _ _ _ j
  rw [Domain.select_of_mask_one _ h0, Domain.select_of_mask_one _ h1, Domain.select_of_mask_one _ h0, Domain.select_of_mask_one _ h1]
  simp only [truncf_id, gather0, gather1, gather2, gather3, bias_row]
  rfl

end Cert.Bridge

end
-- ==== Proof.PreDecode.lean ====
/-
  What the precondition says of the two index inputs: every row number is a valid numpy index of a 100000-row table
  (`-100000 ≤ x < 100000`) and every column number of a 50000-row table (`-50000 ≤ x < 50000`). These are the last
  four conjuncts of the printed predicate, each a `jnp.all` of one signed comparison.
-/
import proofs.«413763_j3805341024787_1_alg».proof.Proof.Gen.Pre_finite_inputs
import Idealize.ShloMosaic.Lib.ReduceAll
import Idealize.ShloMosaic.Lib.ValueIdx

noncomputable section

namespace Cert.Pre_finite_inputs.Decode

open Cert.Pre_finite_inputs Idealize.ShloMosaic Idealize.ShloMosaic.ValueIdx

instance : Subsingleton S_.Idx := ⟨fun a b => funext fun d => d.elim0⟩

theorem toInt_neg100000 : (4294867296#32 : BitVec 32).toInt = -100000 := by decide
theorem toInt_100000 : (100000#32 : BitVec 32).toInt = 100000 := by decide
theorem toInt_neg50000 : (4294917296#32 : BitVec 32).toInt = -50000 := by decide
theorem toInt_50000 : (50000#32 : BitVec 32).toInt = 50000 := by decide

/-- The index inputs are in their numpy ranges wherever the precondition holds. -/
theorem index_ranges (a0 a1 : IVec S131072 32) (a2 : FVec Ideal S100000x960 .f32) (a3 : FVec Ideal S50000x960 .f32) (a4 : FVec Ideal S100000x32 .f32) (a5 : FVec Ideal S50000x32 .f32) (a6 : FVec Ideal S960x960 .f32) (a7 : FVec Ideal S960 .f32) (a8 : FVec Ideal S512x1024 .f32) (a9 : FVec Ideal S512 .f32) (a10 : FVec Ideal S256x512 .f32) (a11 : FVec Ideal S256 .f32) (a12 : FVec Ideal S128x256 .f32) (a13 : FVec Ideal S128 .f32) (a14 : FVec Ideal S1x128 .f32) (a15 : FVec Ideal S1 .f32)
    (h : fn (F := Ideal) a0 a1 a2 a3 a4 a5 a6 a7 a8 a9 a10 a11 a12 a13 a14 a15 = fun _ => 1#1) :
    (∀ i, -(100000 : Int) ≤ (a0 i).toInt ∧ (a0 i).toInt < 100000)
    ∧ (∀ i, -(50000 : Int) ≤ (a1 i).toInt ∧ (a1 i).toInt < 50000) := by
  have h0 := congrFun h ix0
  dsimp only [fn, fn_part1, fn_part2, fn_part3, fn_part4, fn_part5] at h0
  obtain ⟨h1, h83⟩ := IntOp.andi_eq_one.1 h0
  obtain ⟨h2, h79⟩ := IntOp.andi_eq_one.1 h1
  obtain ⟨h3, h75⟩ := IntOp.andi_eq_one.1 h2
  obtain ⟨_, h71⟩ := IntOp.andi_eq_one.1 h3
  refine ⟨fun i => ⟨?_, ?_⟩, fun i => ⟨?_, ?_⟩⟩
  · have t : (4294867296#32 : BitVec 32).toInt ≤ (a0 i).toInt := IntOp.cmpi_sge.1 (Host.reduce_andi_all _ _ _ _ _ h71 i)
    rw [toInt_neg100000] at t
    exact t
  · have t : (a0 i).toInt < (100000#32 : BitVec 32).toInt := IntOp.cmpi_slt.1 (Host.reduce_andi_all _ _ _ _ _ h75 i)
    rw [toInt_100000] at t
    exact t
  · have t : (4294917296#32 : BitVec 32).toInt ≤ (a1 i).toInt := IntOp.cmpi_sge.1 (Host.reduce_andi_all _ _ _ _ _ h79 i)
    rw [toInt_neg50000] at t
    exact t
  · have t : (a1 i).toInt < (50000#32 : BitVec 32).toInt := IntOp.cmpi_slt.1 (Host.reduce_andi_all _ _ _ _ _ h83 i)
    rw [toInt_50000] at t
    exact t

end Cert.Pre_finite_inputs.Decode

end
-- ==== Proof.lean ====
/-
  A recommender's scoring head: for each of 131072 (user, item) pairs, gather the user's and the item's embedding rows
  (960 interaction and 32 independent features each), transform the two interaction rows by one dense layer and multiply
  them entry by entry, join the three feature groups into 1024 numbers, and pass them through three `tanh` layers
  (1024 → 512 → 256 → 128) and a linear readout, plus 3.5.

  The kernel gathers with a fill-mode `take` (a row number outside the table would read a fill value), casts to bf16
  (nothing over the extended reals) and runs the dense layers on blocks of 1024 pairs, the weights resident; the
  reference gathers by plain indexing and runs the same layers on all pairs at once. Both wrap a negative row number
  the numpy way. Wherever every row number is a valid index of the user tables (`-100000 ≤ r < 100000`) and every column
  number of the item tables (`-50000 ≤ c < 50000`) the fill never happens, every layer of either program is the same sum
  over the same index set, and row `b` of either result is `Spec.score` of row `b` of the gathered arrays
  (Proof/Spec.lean). No law of the extended reals beyond re-indexing a finite sum is used, so the finiteness of the float
  inputs plays no part.

  Modules: Spec (the function), LibPlainDot and Layers (one layer of either program at an entry), KernelBody (the body's
  two payloads), KernelBlocks and KernelValue (blocks to the whole result array), HostArrays (the arrays the region
  finds), Domain and PreDecode (the index ranges, and the fill mask under them), RefBody (the reference), Bridge (the two
  results are one function of the arguments).
-/
import proofs.«413763_j3805341024787_1_alg».proof.Defs
import proofs.«413763_j3805341024787_1_alg».proof.Proof.Gen.Kernel
import proofs.«413763_j3805341024787_1_alg».proof.Proof.Gen.Kernel.Skeleton
import proofs.«413763_j3805341024787_1_alg».proof.Proof.Gen.Kernel.Launch
import proofs.«413763_j3805341024787_1_alg».proof.Proof.Gen.Kernel.Points
import proofs.«413763_j3805341024787_1_alg».proof.Proof.Gen.Kernel.Frame
import proofs.«413763_j3805341024787_1_alg».proof.Proof.Gen.KernelIdeal
import proofs.«413763_j3805341024787_1_alg».proof.Proof.Gen.KernelIdeal.Skeleton
import proofs.«413763_j3805341024787_1_alg».proof.Proof.Gen.KernelIdeal.Launch
import proofs.«413763_j3805341024787_1_alg».proof.Proof.Gen.KernelIdeal.Points
import proofs.«413763_j3805341024787_1_alg».proof.Proof.Gen.KernelIdeal.Frame
import proofs.«413763_j3805341024787_1_alg».proof.Proof.Gen.ReferenceIdeal
import proofs.«413763_j3805341024787_1_alg».proof.Proof.Gen.Pre_finite_inputs
import proofs.«413763_j3805341024787_1_alg».proof.Proof.Gen.KernelIdeal.Value
import proofs.«413763_j3805341024787_1_alg».proof.Proof.Gen.ReferenceIdeal.Run
import proofs.«413763_j3805341024787_1_alg».proof.Proof.Gen.ReferenceIdeal.Read
import proofs.«413763_j3805341024787_1_alg».proof.Proof.KernelValue
import proofs.«413763_j3805341024787_1_alg».proof.Proof.Bridge
import proofs.«413763_j3805341024787_1_alg».proof.Proof.PreDecode
import Idealize.ShloMosaic.Adequacy
import Idealize.ShloMosaic.Init

noncomputable section

namespace Cert.Proof

open Idealize.ShloMosaic Idealize.SL.Sem

/-- The word-level kernel runs and leaves its arguments as they were. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing of the kernel was rewritten on the way to the extended reals. -/
theorem preserves : Cert.preserves_Kernel_KernelIdeal := trivial

/-- From memories that agree on the sixteen arguments, with valid index inputs, both programs end with the result array
    at `Spec.scores` of the same gathered arrays, transposed weights and biases. -/
theorem algebraic : Cert.algebraic_KernelIdeal_ReferenceIdeal := by
  intro m ρ m' ρ' hpre hagree
  refine ⟨fun c => Cert.KernelIdeal.RowValue.G m c, Cert.KernelIdeal.RowValue.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11, e12, e13, e14, e15⟩ := hagree c
  obtain ⟨hr0, hr1⟩ := Cert.Pre_finite_inputs.Decode.index_ranges _ _ _ _ _ _ _ _ _ _ _ _ _ _ _ _ (hpre c)
  rw [Cert.ReferenceIdeal.Read.val_main_v64_eq, e0, e1, e2, e3, e4, e5, e6, e7, e8, e9, e10, e11, e12, e13, e14, e15]
  exact (Cert.Bridge.G_eq m c hr0 hr1).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
